-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S100x128 : Shape := ⟨2, ![100, 128]⟩
abbrev S1048576 : Shape := ⟨1, ![1048576]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x128 .f32) (main_arg1 : FVec F S100x128 .f32) (main_arg2 : IVec S1048576 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg2 main_v9
  let main_c_3 : IVec S_ 32 := constantI S_ 32 100#32
  let main_v11 : IVec S1048576 32 := broadcastInDim S1048576 ![] bcast_S_S1048576 main_c_3
  let main_v12 : IVec S1048576 1 := cmpi .slt main_arg2 main_v11
  let main_v13 : IVec S1048576 1 := andi main_v10 main_v12
  let main_c_4 : IVec S_ 1 := constantI S_ 1 1#1
  let main_v14 : IVec S_ 1 := (fun x v => Host.reduce IntOp.andi x v reducesTo_S1048576_S_d0 h_S_) main_v13 main_c_4
  let main_v15 : IVec S_ 1 := andi main_v8 main_v14
  main_v15
-- ==== Kernel.lean ====
abbrev S1048576x128 : Shape := ⟨2, ![1048576, 128]⟩
abbrev S100x128 : Shape := ⟨2, ![100, 128]⟩
abbrev S1048576 : Shape := ⟨1, ![1048576]⟩
abbrev S_ : Shape := ⟨0, ![]⟩
abbrev S128x128 : Shape := ⟨2, ![128, 128]⟩
abbrev S1 : Shape := ⟨1, ![1]⟩
abbrev S1048576x1 : Shape := ⟨2, ![1048576, 1]⟩
abbrev S1x1 : Shape := ⟨2, ![1, 1]⟩
abbrev S1x128 : Shape := ⟨2, ![1, 128]⟩
abbrev S8192x128 : Shape := ⟨2, ![8192, 128]⟩
abbrev S8192x1 : Shape := ⟨2, ![8192, 1]⟩
abbrev S8192 : Shape := ⟨1, ![8192]⟩
abbrev S1x8192x1 : Shape := ⟨3, ![1, 8192, 1]⟩
abbrev S1x1x1 : Shape := ⟨3, ![1, 1, 1]⟩
abbrev S128 : Shape := ⟨1, ![128]⟩
abbrev S1x100 : Shape := ⟨2, ![1, 100]⟩
abbrev S100 : Shape := ⟨1, ![100]⟩

abbrev nBuf : Space → Nat
  | .hbm => 25
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S100x128, .f32⟩
  | .hbm, ⟨2, _⟩ => ⟨S1048576, .i32⟩
  | .hbm, ⟨3, _⟩ => ⟨S_, .f32⟩
  | .hbm, ⟨4, _⟩ => ⟨S128x128, .f32⟩
  | .hbm, ⟨5, _⟩ => ⟨S_, .i32⟩
  | .hbm, ⟨6, _⟩ => ⟨S1, .i32⟩
  | .hbm, ⟨7, _⟩ => ⟨S128x128, .f32⟩
  | .hbm, ⟨8, _⟩ => ⟨S128x128, .f32⟩
  | .hbm, ⟨9, _⟩ => ⟨S1048576x1, .i32⟩
  | .hbm, ⟨10, _⟩ => ⟨S1x1, .f32⟩
  | .hbm, ⟨11, _⟩ => ⟨S1x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x100, .f32⟩
  | .hbm, ⟨16, _⟩ => ⟨S100, .f32⟩
  | .hbm, ⟨17, _⟩ => ⟨S_, .f32⟩
  | .hbm, ⟨18, _⟩ => ⟨S100, .f32⟩
  | .hbm, ⟨19, _⟩ => ⟨S100, .i1⟩
  | .hbm, ⟨20, _⟩ => ⟨S100, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x1, .i32⟩
  | .local _ .vmem, ⟨3, _⟩ => ⟨S8192x1, .i32⟩
  | .local _ .vmem, ⟨4, _⟩ => ⟨S128x128, .f32⟩
  | .local _ .vmem, ⟨5, _⟩ => ⟨S1x1, .f32⟩
  | .local _ .vmem, ⟨6, _⟩ => ⟨S1x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S128x128 : S_.BroadcastsInDim S128x128 (![] : Fin 0 → Fin S128x128.rank)
  bcast_S_S1 : S_.BroadcastsInDim S1 (![] : Fin 0 → Fin S1.rank)
  transposes_S128x128_S128x128_1_0 : S128x128.Transposes [1, 0] S128x128
  shapeCasts_S1048576_S1048576x1 : S1048576.ShapeCasts S1048576x1
  inb_S1x1_S1x1_0_0 : ∀ a, (![0, 0] : Fin 2 → Nat) a + S1x1.size a ≤ S1x1.size a
  h_S1x1 : 0 < S1x1.numel
  inb_S1x128_S1x128_0_0 : ∀ a, (![0, 0] : Fin 2 → Nat) a + S1x128.size a ≤ S1x128.size a
  h_S1x128 : 0 < S1x128.numel
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S8192x128_d1_w32 : S8192x128.Iotas .tc 32 [1]
  reduces_S8192x128_S8192 : S8192x128.Reduces [1] S8192
  shapeCasts_S8192_S8192x1 : S8192.ShapeCasts S8192x1
  broadcasts_S8192x1_S8192x128 : S8192x1.Broadcasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  natLt_1_32 : 1 < 32
  shapeCasts_S1x1_S1x1 : S1x1.ShapeCasts S1x1
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  shapeCasts_S1x128_S1x128 : S1x128.ShapeCasts S1x128
  reduces_S8192x128_S128 : S8192x128.Reduces [0] S128
  shapeCasts_S128_S1x128 : S128.ShapeCasts S1x128
  shapeCasts_S1x1_S_ : S1x1.ShapeCasts S_
  slices_S1x128_S1x100_0_0 : S1x128.Slices ![0, 0] S1x100
  shapeCasts_S1x100_S100 : S1x100.ShapeCasts S100
  bcast_S_S100 : S_.BroadcastsInDim S100 (![] : Fin 0 → Fin S100.rank)
  reducesTo_S100_S_d0 : S100.ReducesTo [0] S_
  h_S_ : 0 < S_.numel
  scatter_S128x128_S1_S100x128_01_n_0_0_wf : ScatterDims.WF S128x128 S1 S100x128 [0, 1] [] [0] 0
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1048576x1.size a
  hwx0_1 : ∀ i : grid0.Coords, EltTy.bits .i32 = 32 ∨ (Rect.block (s := S1048576x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

def scatter_S128x128_S1_S100x128_01_n_0_0 : ScatterDims S128x128 S1 S100x128 where
  updateWindowDims := [0, 1]
  insertedWindowDims := []
  scatterDimsToOperandDims := [0]
  indexVectorDim := 0
  wf := scatter_S128x128_S1_S100x128_01_n_0_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S100x128 : Shape := ⟨2, ![100, 128]⟩
abbrev S1048576 : Shape := ⟨1, ![1048576]⟩
abbrev S1048576x100 : Shape := ⟨2, ![1048576, 100]⟩
abbrev S_ : Shape := ⟨0, ![]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩
abbrev S100 : Shape := ⟨1, ![100]⟩

abbrev nBuf : Space → Nat
  | .hbm => 62
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S100x128, .f32⟩
  | .hbm, ⟨2, _⟩ => ⟨S1048576, .i32⟩
  | .hbm, ⟨3, _⟩ => ⟨S1048576x100, .f32⟩
  | .hbm, ⟨4, _⟩ => ⟨S_, .f32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576, .f32⟩
  | .hbm, ⟨9, _⟩ => ⟨S1048576x1, .f32⟩
  | .hbm, ⟨10, _⟩ => ⟨S1048576x100, .f32⟩
  | .hbm, ⟨11, _⟩ => ⟨S1048576x100, .f32⟩
  | .hbm, ⟨12, _⟩ => ⟨S1048576x100, .f32⟩
  | .hbm, ⟨13, _⟩ => ⟨S_, .f32⟩
  | .hbm, ⟨14, _⟩ => ⟨S1048576, .f32⟩
  | .hbm, ⟨15, _⟩ => ⟨S1048576x1, .f32⟩
  | .hbm, ⟨16, _⟩ => ⟨S1048576x1, .f32⟩
  | .hbm, ⟨17, _⟩ => ⟨S1048576x100, .f32⟩
  | .hbm, ⟨18, _⟩ => ⟨S1048576x100, .f32⟩
  | .hbm, ⟨19, _⟩ => ⟨S1048576x1, .i32⟩
  | .hbm, ⟨20, _⟩ => ⟨S_, .i32⟩
  | .hbm, ⟨21, _⟩ => ⟨S1048576x1, .i32⟩
  | .hbm, ⟨22, _⟩ => ⟨S1048576x1, .i1⟩
  | .hbm, ⟨23, _⟩ => ⟨S_, .i32⟩
  | .hbm, ⟨24, _⟩ => ⟨S1048576x1, .i32⟩
  | .hbm, ⟨25, _⟩ => ⟨S1048576x1, .i32⟩
  | .hbm, ⟨26, _⟩ => ⟨S1048576x1, .i32⟩
  | .hbm, ⟨27, _⟩ => ⟨S1048576x1x1, .i32⟩
  | .hbm, ⟨28, _⟩ => ⟨S1, .i32⟩
  | .hbm, ⟨29, _⟩ => ⟨S_, .i32⟩
  | .hbm, ⟨30, _⟩ => ⟨S1048576x1x1, .i32⟩
  | .hbm, ⟨31, _⟩ => ⟨S1048576x1x1, .i1⟩
  | .hbm, ⟨32, _⟩ => ⟨S1x1x1, .i32⟩
  | .hbm, ⟨33, _⟩ => ⟨S1048576x1x1, .i32⟩
  | .hbm, ⟨34, _⟩ => ⟨S1048576x1x1, .i1⟩
  | .hbm, ⟨35, _⟩ => ⟨S1048576x1x1, .i1⟩
  | .hbm, ⟨36, _⟩ => ⟨S_, .i1⟩
  | .hbm, ⟨37, _⟩ => ⟨S1048576x1, .i1⟩
  | .hbm, ⟨38, _⟩ => ⟨S1048576x1, .f32⟩
  | .hbm, ⟨39, _⟩ => ⟨S_, .f32⟩
  | .hbm, ⟨40, _⟩ => ⟨S1048576x1, .f32⟩
  | .hbm, ⟨41, _⟩ => ⟨S1048576x1, .f32⟩
  | .hbm, ⟨42, _⟩ => ⟨S1048576, .f32⟩
  | .hbm, ⟨43, _⟩ => ⟨S1048576, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S1048576, .i32⟩
  | .hbm, ⟨50, _⟩ => ⟨S_, .i32⟩
  | .hbm, ⟨51, _⟩ => ⟨S100, .i32⟩
  | .hbm, ⟨52, _⟩ => ⟨S1048576x1, .i32⟩
  | .hbm, ⟨53, _⟩ => ⟨S100, .i32⟩
  | .hbm, ⟨54, _⟩ => ⟨S_, .i32⟩
  | .hbm, ⟨55, _⟩ => ⟨S100, .i32⟩
  | .hbm, ⟨56, _⟩ => ⟨S100, .i1⟩
  | .hbm, ⟨57, _⟩ => ⟨S100, .i32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_cst_0 : Ref sig .tc := ⟨.hbm, 46, rfl⟩
abbrev main_v7 : Ref sig .tc := ⟨.hbm, 47, rfl⟩
abbrev main_c : Ref sig .tc := ⟨.hbm, 48, rfl⟩
abbrev main_v8 : Ref sig .tc := ⟨.hbm, 49, rfl⟩
abbrev main_c_1 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_c_2 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_c_3 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩

abbrev nD : Nat := 1
abbrev τ : Topo := Topo.v7x

variable {F : FTy → Type} [FloatOps F]

class Facts₀ : Prop where
  reducesTo_S1048576x100_S1048576_d1 : S1048576x100.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x100_0_1 : S1048576x1.BroadcastsInDim S1048576x100 (![0, 1] : Fin 2 → Fin S1048576x100.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  shapeCasts_S1048576x1_S1048576 : S1048576x1.ShapeCasts S1048576
  reducesTo_S1048576_S_d0 : S1048576.ReducesTo [0] S_
  bcast_S_S100 : S_.BroadcastsInDim S100 (![] : Fin 0 → Fin S100.rank)
  natLt_1_32 : 1 < 32
  reducesTo_S100_S_d0 : S100.ReducesTo [0] S_
  dot_S1048576x128_S100x128_S1048576x100_1_1_0_0_n_n_wf : DotDims.WF S1048576x128 S100x128 S1048576x100 [1] [1] [0] [0] [] []
  gather_S1048576x100_S1048576x1x1_S1048576x1_n_1_0_0_1_2_11_wf : GatherDims.WF S1048576x100 S1048576x1x1 S1048576x1 [] [1] [0] [1] [0] 2 ![1, 1]
  scatter_S100_S1048576x1_S1048576_n_0_0_1_wf : ScatterDims.WF S100 S1048576x1 S1048576 [] [0] [0] 1

variable [Facts₀]

def dot_S1048576x128_S100x128_S1048576x100_1_1_0_0_n_n : DotDims S1048576x128 S100x128 S1048576x100 where
  lhsContracting := [1]
  rhsContracting := [1]
  lhsNonContracting := [0]
  rhsNonContracting := [0]
  lhsBatch := []
  rhsBatch := []
  wf := dot_S1048576x128_S100x128_S1048576x100_1_1_0_0_n_n_wf
def gather_S1048576x100_S1048576x1x1_S1048576x1_n_1_0_0_1_2_11 : GatherDims S1048576x100 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x100_S1048576x1x1_S1048576x1_n_1_0_0_1_2_11_wf
def scatter_S100_S1048576x1_S1048576_n_0_0_1 : ScatterDims S100 S1048576x1 S1048576 where
  updateWindowDims := []
  insertedWindowDims := [0]
  scatterDimsToOperandDims := [0]
  indexVectorDim := 1
  wf := scatter_S100_S1048576x1_S1048576_n_0_0_1_wf

class Facts : Prop extends Facts₀ where

variable [Facts]
-- ==== Proof.Spec.lean ====
/-
  The mathematics both programs compute, stated once over plain index types.

  A sample n has class scores s(n, c) = Σ_k x(n, k) · a(c, k), c < 100. The reference takes, per sample, minus the
  log-softmax of the scores at the sample's label: −((s_y − M) − log Σ_c exp(s_c − M)), M the row maximum, sums these over
  all samples, divides by their number, and multiplies by the number of classes that occur among the labels.
  The kernel works on 128 lanes per sample: lanes 100 … 127 hold −∞ (the named fill), so they are neutral in the maximum,
  contribute exp(−∞) = 0 to the sum of exponentials and 0 · (−∞) = 0 to the one-hot product; it accumulates the per-sample
  values and the one-hot columns tile by tile (128 tiles of 8192 samples).
-/
import Mathlib.Data.EReal.Basic
import Mathlib.Analysis.SpecialFunctions.Log.Basic
import Idealize.ShloMosaic.PureOps.Ideal
import Idealize.ShloMosaic.Lib.ValueIdx

noncomputable section

namespace Cert.CE

open Idealize.ShloMosaic Idealize.ShloMosaic.ValueIdx
open scoped BigOperators

/-- The shapes of the three arguments, of one tile of samples and labels, and of the padded transposed anchors. -/
abbrev SX : Shape := ⟨2, ![1048576, 128]⟩
abbrev SA : Shape := ⟨2, ![100, 128]⟩
abbrev SY : Shape := ⟨1, ![1048576]⟩
abbrev SXB : Shape := ⟨2, ![8192, 128]⟩
abbrev SYB : Shape := ⟨2, ![8192, 1]⟩
abbrev SW : Shape := ⟨2, ![128, 128]⟩

/-- The score of sample n against class c. -/
def score (x : SX.Idx → EReal) (a : SA.Idx → EReal) (n : Fin 1048576) (c : Fin 100) : EReal :=
  ∑ k : Fin 128, x (ix2 n k) * a (ix2 c k)

/-- A row's maximum over the 100 classes, from −∞. -/
def rmax (s : Fin 100 → EReal) : EReal := Finset.univ.fold max ⊥ s

/-- The reference's value for one sample with scores s and label j: minus the log-softmax at j. -/
def refRow (s : Fin 100 → EReal) (j : Fin 100) : EReal :=
  -((s j - rmax s) - Ideal.log (∑ c : Fin 100, Ideal.exp (s c - rmax s)))

/-- The kernel's 128 lanes of one sample: the score on a class lane, −∞ on a padding lane. -/
def sel (g : Fin 128 → EReal) (l : Fin 128) : EReal := if l.val < 100 then g l else ⊥

/-- The one-hot lane of a label word: 1 on the lane whose number is the word, else 0. -/
def oh (yw : BitVec 32) (l : Fin 128) : EReal := if BitVec.ofNat 32 l.val = yw then 1 else 0

/-- The kernel's row maximum over its 128 lanes, from −∞. -/
def kmax (g : Fin 128 → EReal) : EReal := Finset.univ.fold max ⊥ (sel g)

/-- The kernel's value for one sample: log-sum-exp over the lanes minus the one-hot pick of the label's lane. -/
def kerRow (g : Fin 128 → EReal) (yw : BitVec 32) : EReal :=
  (Ideal.log (∑ l : Fin 128, Ideal.exp (sel g l - kmax g)) + kmax g) - ∑ l : Fin 128, sel g l * oh yw l

/-- The matrix product of a tile of samples with the padded transposed anchors, at row r and lane l. -/
def mm (xb : SXB.Idx → EReal) (w : SW.Idx → EReal) (r : Fin 8192) (l : Fin 128) : EReal :=
  ∑ k : Fin 128, xb (ix2 r k) * w (ix2 k l)

/-- What one tile adds to the running cross-entropy sum. -/
def tileCE (xb : SXB.Idx → EReal) (w : SW.Idx → EReal) (yb : SYB.Idx → BitVec 32) : EReal :=
  ∑ r : Fin 8192, kerRow (mm xb w r) (yb (ix2 r 0))

/-- What one tile adds to lane l of the running class counts. -/
def tileCnt (yb : SYB.Idx → BitVec 32) (l : Fin 128) : EReal := ∑ r : Fin 8192, oh (yb (ix2 r 0)) l

/-- Sample number of row r of tile t. -/
def rowOf (t : Fin 128) (r : Fin 8192) : Fin 1048576 := ⟨8192 * t.val + r.val, by omega⟩

/-- Tile t of the samples, of the labels (as a column), and the padded transposed anchors. -/
def xblk (x : SX.Idx → EReal) (t : Fin 128) : SXB.Idx → EReal := fun j => x (ix2 (rowOf t (j 0)) (j 1))
def yblk (y : SY.Idx → BitVec 32) (t : Fin 128) : SYB.Idx → BitVec 32 := fun j => y (ix1 (rowOf t (j 0)))
def wpad (a : SA.Idx → EReal) : SW.Idx → EReal :=
  fun j => if h : (j 1).val < 100 then a (ix2 ⟨(j 1).val, h⟩ (j 0)) else 0

/-- Every label is a class number: 0 ≤ y n < 100 as signed words. -/
def InRange (y : SY.Idx → BitVec 32) : Prop := ∀ n : Fin 1048576, 0 ≤ (y (ix1 n)).toInt ∧ (y (ix1 n)).toInt < 100

/-- Every entry is a real number. -/
def Finite {s : Shape} (v : s.Idx → EReal) : Prop := ∀ i, ∃ r : ℝ, v i = (r : EReal)

/-- The class of sample n (meaningful under `InRange`). -/
def lab (y : SY.Idx → BitVec 32) (n : Fin 1048576) : Fin 100 := ⟨(y (ix1 n)).toInt.toNat % 100, Nat.mod_lt _ (by decide)⟩

/-- Class c occurs among the labels. -/
def present (y : SY.Idx → BitVec 32) (c : Fin 100) : Prop := ∃ n : Fin 1048576, (y (ix1 n)).toInt = (c.val : Int)

/-- The presence bit of class c. -/
def presentBit (y : SY.Idx → BitVec 32) (c : Fin 100) : BitVec 1 := by
  classical exact if present y c then 1#1 else 0#1

/-- The sum of the reference's per-sample values. -/
def refTotal (x : SX.Idx → EReal) (a : SA.Idx → EReal) (y : SY.Idx → BitVec 32) : EReal :=
  ∑ n : Fin 1048576, refRow (score x a n) (lab y n)

/-- The kernel's running sum after all tiles. -/
def kerTotal (x : SX.Idx → EReal) (a : SA.Idx → EReal) (y : SY.Idx → BitVec 32) : EReal :=
  ∑ t : Fin 128, tileCE (xblk x t) (wpad a) (yblk y t)

/-- The kernel's class count of lane l after all tiles. -/
def kerCnt (y : SY.Idx → BitVec 32) (l : Fin 128) : EReal := ∑ t : Fin 128, tileCnt (yblk y t) l

end Cert.CE

end
-- ==== Proof.KernelFrame.lean ====
import proofs.«423522_j76991583748731_1_alg».proof.Proof.Gen.KernelIdeal.Frame
import proofs.«423522_j76991583748731_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F] [Named F]
variable (m : (ℓ : Loc nD τ sig) → Buf (Elt F) ℓ) (ρ : Dev nD → PrngReg)

/-- The zero offsets of a block that is its whole buffer. -/
theorem hz : (![0, 0] : Fin 2 → Nat) = fun _ => 0 := funext fun a => by fin_cases a <;> rfl

/-! ## What one grid point leaves in the two accumulators

At the first point the body stores zeros into both accumulators, reads them back and adds the tile's contribution; at
every later point it adds the tile's contribution to what the point before left. -/

/-- A later point: the cross-entropy accumulator ends at the running value plus the tile's sum. -/
theorem ce_later (c : Dev nD) (i : grid0.Coords) (a1 : Memref sig .tc .vmem S8192x128 .f32) (h1 : a1.IsWhole) (a2 : Memref sig .tc .vmem S8192x1 .i32) (h2 : a2.IsWhole) (a3 : Memref sig .tc .vmem S128x128 .f32) (h3 : a3.IsWhole) (a4 : Memref sig .tc .vmem S1x1 .f32) (h4 : a4.IsWhole) (a5 : Memref sig .tc .vmem S1x128 .f32) (h5 : a5.IsWhole) (hc : ¬cond0_0 i) (x0 : Vec F S8192x128 .f32) (x1 : Vec F S8192x1 .i32) (x2 : Vec F S128x128 .f32) (xo3 : Vec F S1x1 .f32) (xo4 : Vec F S1x128 .f32) :
    out0_B_3 c i a1 h1 a2 h2 a3 h3 a4 h4 a5 h5 hc x0 x1 x2 xo3 xo4 = k0_pay5 x0 x2 x1 xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread,
    View.ld_unit_zero (S := S8192x128) hz, View.ld_unit_zero (S := S8192x1) hz, View.ld_unit_zero (S := S128x128) hz,
    View.ld_unit_zero (S := S1x1) hz]

/-- A later point: the class-count accumulator ends at the running counts plus the tile's one-hot column sums. -/
theorem cnt_later (c : Dev nD) (i : grid0.Coords) (a1 : Memref sig .tc .vmem S8192x128 .f32) (h1 : a1.IsWhole) (a2 : Memref sig .tc .vmem S8192x1 .i32) (h2 : a2.IsWhole) (a3 : Memref sig .tc .vmem S128x128 .f32) (h3 : a3.IsWhole) (a4 : Memref sig .tc .vmem S1x1 .f32) (h4 : a4.IsWhole) (a5 : Memref sig .tc .vmem S1x128 .f32) (h5 : a5.IsWhole) (hc : ¬cond0_0 i) (x0 : Vec F S8192x128 .f32) (x1 : Vec F S8192x1 .i32) (x2 : Vec F S128x128 .f32) (xo3 : Vec F S1x1 .f32) (xo4 : Vec F S1x128 .f32) :
    out0_B_4 c i a1 h1 a2 h2 a3 h3 a4 h4 a5 h5 hc x0 x1 x2 xo3 xo4 = k0_pay1 (k0_pay4 x1) xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz]
  simp only [View.readAt_eq_ld, h2.read_unread, h5.read_unread,
    View.ld_unit_zero (S := S8192x1) hz, View.ld_unit_zero (S := S1x128) hz]

/-- The first point: the cross-entropy accumulator ends at zero plus the tile's sum. -/
theorem ce_first (c : Dev nD) (i : grid0.Coords) (a1 : Memref sig .tc .vmem S8192x128 .f32) (h1 : a1.IsWhole) (a2 : Memref sig .tc .vmem S8192x1 .i32) (h2 : a2.IsWhole) (a3 : Memref sig .tc .vmem S128x128 .f32) (h3 : a3.IsWhole) (a4 : Memref sig .tc .vmem S1x1 .f32) (h4 : a4.IsWhole) (a5 : Memref sig .tc .vmem S1x128 .f32) (h5 : a5.IsWhole) (hc : cond0_0 i) (x0 : Vec F S8192x128 .f32) (x1 : Vec F S8192x1 .i32) (x2 : Vec F S128x128 .f32) :
    out0_A_3 c i a1 h1 a2 h2 a3 h3 a4 h4 a5 h5 hc x0 x1 x2 = k0_pay5 x0 x2 x1 (k0_pay2 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S8192x128) hz, View.ld_unit_zero (S := S8192x1) hz, View.ld_unit_zero (S := S128x128) hz]

/-- The first point: the class-count accumulator ends at zero plus the tile's one-hot column sums. -/
theorem cnt_first (c : Dev nD) (i : grid0.Coords) (a1 : Memref sig .tc .vmem S8192x128 .f32) (h1 : a1.IsWhole) (a2 : Memref sig .tc .vmem S8192x1 .i32) (h2 : a2.IsWhole) (a3 : Memref sig .tc .vmem S128x128 .f32) (h3 : a3.IsWhole) (a4 : Memref sig .tc .vmem S1x1 .f32) (h4 : a4.IsWhole) (a5 : Memref sig .tc .vmem S1x128 .f32) (h5 : a5.IsWhole) (hc : cond0_0 i) (x0 : Vec F S8192x128 .f32) (x1 : Vec F S8192x1 .i32) (x2 : Vec F S128x128 .f32) :
    out0_A_4 c i a1 h1 a2 h2 a3 h3 a4 h4 a5 h5 hc x0 x1 x2 = k0_pay1 (k0_pay4 x1) (k0_pay3 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  simp only [View.readAt_eq_ld, h2.read_unread, View.ld_unit_zero (S := S8192x1) hz]

/-! ## The accumulators after point n, in closed form -/

/-- The running cross-entropy sum after point n: the first tile's sum over zero, then one tile's sum more per point. -/
def accCE (c : Dev nD) : (n : ℕ) → n < cfg0.N → Vec F S1x1 .f32
  | 0, h => k0_pay5 (iblk m c 0 ⟨0, h⟩) (iblk m c 2 ⟨0, h⟩) (iblk m c 1 ⟨0, h⟩) (k0_pay2 (F := F))
  | n + 1, h => k0_pay5 (iblk m c 0 ⟨n + 1, h⟩) (iblk m c 2 ⟨n + 1, h⟩) (iblk m c 1 ⟨n + 1, h⟩) (accCE c n (Nat.lt_of_succ_lt h))

/-- The running class counts after point n. -/
def accCnt (c : Dev nD) : (n : ℕ) → n < cfg0.N → Vec F S1x128 .f32
  | 0, h => k0_pay1 (k0_pay4 (iblk m c 1 ⟨0, h⟩)) (k0_pay3 (F := F))
  | n + 1, h => k0_pay1 (k0_pay4 (iblk m c 1 ⟨n + 1, h⟩)) (accCnt c n (Nat.lt_of_succ_lt h))

/-- What the two output buffers hold after point n is the pair of running values: by induction on the point. -/
theorem outsAt_eq (c : Dev nD) : ∀ (n : ℕ) (h : n < cfg0.N), outsAt0 m c n h = (accCE m c n h, accCnt m c n h)
  | 0, h => by
    rw [outsAt0_A m c ⟨0, h⟩ rfl, ce_first, cnt_first]
    rfl
  | n + 1, h => by
    have hN : cfg0.N = 128 := N_0
    have hB : ¬(⟨n + 1, h⟩ : Fin cfg0.N).val % 128 = 0 := by dsimp only; omega
    rw [outsAt0_B m c ⟨n + 1, h⟩ hB, ce_later, cnt_later]
    have ih := outsAt_eq c n (Nat.lt_of_succ_lt h)
    show (k0_pay5 _ _ _ (outsAt0 m c n _).1, k0_pay1 _ (outsAt0 m c n _).2) = _
    rw [ih]
    rfl

/-! ## The two result arrays after the run

Each accumulator's block index never moves, so it is written back once, after the last point, and its one block is the
whole array: the array ends holding what the last point left. -/

/-- The last grid point. -/
def tlast : Fin cfg0.N := ⟨127, by show 127 < grid0.N; rw [N_0]; decide⟩

theorem flush_last {t : Fin cfg0.N} (h : t.val % 128 = 127) : t = tlast := by
  have hN : cfg0.N = 128 := N_0
  have := t.isLt
  exact Fin.ext (by show t.val = 127; omega)

/-- The one write-back of the cross-entropy accumulator writes what the last point left. -/
theorem flushed_ce (c : Dev nD) (t : Fin cfg0.N) (hf : (cfg0.win 3).flush t = true) :
    (dats m 0 c).flushed 3 t = ((cfg0.win 3).blk t).view.read (Elt F) ((outsAt0 m c tlast.val tlast.isLt).1) := by
  obtain rfl : t = tlast := flush_last ((flush0_3 t).mp hf)
  show (cfg0.win 3).cut (grid0.coords tlast) ((dats m 0 c).after 3 tlast) = _
  rw [after0_3]
  have hz' : (fun a => win0_3.index tlast a * main_v5_0.ty.shape.size a) = fun _ => 0 := funext fun a => by fin_cases a <;> decide
  exact (Memref.read_access_unit_zero (Elt F) main_v5_0 hz' (fun a => by rw [congrFun hz' a]; simp) _).symm

/-- The one write-back of the class counts writes what the last point left. -/
theorem flushed_cnt (c : Dev nD) (t : Fin cfg0.N) (hf : (cfg0.win 4).flush t = true) :
    (dats m 0 c).flushed 4 t = ((cfg0.win 4).blk t).view.read (Elt F) ((outsAt0 m c tlast.val tlast.isLt).2) := by
  obtain rfl : t = tlast := flush_last ((flush0_4 t).mp hf)
  show (cfg0.win 4).cut (grid0.coords tlast) ((dats m 0 c).after 4 tlast) = _
  rw [after0_4]
  have hz' : (fun a => win0_4.index tlast a * main_v5_1.ty.shape.size a) = fun _ => 0 := funext fun a => by fin_cases a <;> decide
  exact (Memref.read_access_unit_zero (Elt F) main_v5_1 hz' (fun a => by rw [congrFun hz' a]; simp) _).symm

/-- The cross-entropy array after the run. -/
theorem final_ce (c : Dev nD) : (dats m 0 c).arrAt 3 cfg0.N = (outsAt0 m c tlast.val tlast.isLt).1 :=
  (dats m 0 c).arrAt_eq_of_cover 3 _ (flushed_ce m c) fun i =>
    ⟨tlast, (flush0_3 tlast).mpr rfl, by
      show i ∈ ((View.whole main_v5_0).slice (win0_3.rect tlast)).set
      rw [View.set_slice_whole, Rect.mem_set_unit]
      intro a
      have h0 : (i 0 : Nat) < 1 := (i 0).isLt
      have h1 : (i 1 : Nat) < 1 := (i 1).isLt
      match a with
      | ⟨0, _⟩ => show win0_3.index tlast 0 * win0_3.size 0 ≤ (i 0 : Nat) ∧ (i 0 : Nat) < win0_3.index tlast 0 * win0_3.size 0 + win0_3.xsize (grid0.coords tlast) 0
                  rw [show win0_3.index tlast 0 * win0_3.size 0 = 0 from by decide +kernel, show win0_3.xsize (grid0.coords tlast) 0 = 1 from by decide +kernel]; omega
      | ⟨1, _⟩ => show win0_3.index tlast 1 * win0_3.size 1 ≤ (i 1 : Nat) ∧ (i 1 : Nat) < win0_3.index tlast 1 * win0_3.size 1 + win0_3.xsize (grid0.coords tlast) 1
                  rw [show win0_3.index tlast 1 * win0_3.size 1 = 0 from by decide +kernel, show win0_3.xsize (grid0.coords tlast) 1 = 1 from by decide +kernel]; omega⟩

/-- The class-count array after the run. -/
theorem final_cnt (c : Dev nD) : (dats m 0 c).arrAt 4 cfg0.N = (outsAt0 m c tlast.val tlast.isLt).2 :=
  (dats m 0 c).arrAt_eq_of_cover 4 _ (flushed_cnt m c) fun i =>
    ⟨tlast, (flush0_4 tlast).mpr rfl, by
      show i ∈ ((View.whole main_v5_1).slice (win0_4.rect tlast)).set
      rw [View.set_slice_whole, Rect.mem_set_unit]
      intro a
      have h0 : (i 0 : Nat) < 1 := (i 0).isLt
      have h1 : (i 1 : Nat) < 128 := (i 1).isLt
      match a with
      | ⟨0, _⟩ => show win0_4.index tlast 0 * win0_4.size 0 ≤ (i 0 : Nat) ∧ (i 0 : Nat) < win0_4.index tlast 0 * win0_4.size 0 + win0_4.xsize (grid0.coords tlast) 0
                  rw [show win0_4.index tlast 0 * win0_4.size 0 = 0 from by decide +kernel, show win0_4.xsize (grid0.coords tlast) 0 = 1 from by decide +kernel]; omega
      | ⟨1, _⟩ => show win0_4.index tlast 1 * win0_4.size 1 ≤ (i 1 : Nat) ∧ (i 1 : Nat) < win0_4.index tlast 1 * win0_4.size 1 + win0_4.xsize (grid0.coords tlast) 1
                  rw [show win0_4.index tlast 1 * win0_4.size 1 = 0 from by decide +kernel, show win0_4.xsize (grid0.coords tlast) 1 = 128 from by decide +kernel]; omega⟩

/-! ## The host operations after the region -/

/-- The host operations after the region, as one function of the two result arrays: the sum divided by the number of
    samples, times the number of the first hundred class counts that are positive. -/
def ktail (ce : Vec F S1x1 .f32) (cnt : Vec F S1x128 .f32) : Vec F S_ .f32 :=
  mulf (Host.divf (shapeCast S_ ce shapeCasts_S1x1_S_) (constant S_ .f32 0x49800000#32))
    (sitofp .f32 (Host.reduce IntOp.addi
      (extui 32 (cmpf .ogt (shapeCast S100 (extractStridedSlice S1x100 ![0, 0] cnt slices_S1x128_S1x100_0_0) shapeCasts_S1x100_S100)
        (broadcastInDim S100 ![] bcast_S_S100 (constant S_ .f32 0x00000000#32))) natLt_1_32)
      (constantI S_ 32 0#32) reducesTo_S100_S_d0 h_S_))

/-- From any contents that have the two result arrays at `ce` and `cnt`, the thirteen operations leave the result at
    `ktail ce cnt`. -/
theorem tail_of (W : Valuation τ sig (Elt F)) (ce : Vec F S1x1 .f32) (cnt : Vec F S1x128 .f32)
    (h3 : W (Proc.devRef .tc main_v5_0) = ce) (h4 : W (Proc.devRef .tc main_v5_1) = cnt) :
    StableHlo.after hostOps1 W (Proc.devRef .tc main_v15) = ktail ce cnt := by
  after_results
  rw [h3, h4]
  rfl

/-- The program's result after the run, from the running values the last point left. -/
theorem tail_eq (c : Dev nD) :
    Pipeline.afterTail₀ cfgs (dats m) 0 (V0 m) [hostOps1] c main_v15
      = ktail (accCE m c tlast.val tlast.isLt) (accCnt m c tlast.val tlast.isLt) := by
  unfold Pipeline.afterTail₀
  show StableHlo.after hostOps1 _ (Proc.devRef .tc main_v15) = _
  refine tail_of _ _ _ ?_ ?_
  · exact (Pipeline.withArrays_arr spec0 launch0.win.arr_inj c _ _ 3).trans
      ((final_ce m c).trans (congrArg Prod.fst (outsAt_eq m c _ _)))
  · exact (Pipeline.withArrays_arr spec0 launch0.win.arr_inj c _ _ 4).trans
      ((final_cnt m c).trans (congrArg Prod.snd (outsAt_eq m c _ _)))

/-- THE KERNEL'S RUN, READ: every weakly fair execution terminates with the result at `ktail` of the two running values
    after the last point, and the three arguments unchanged. -/
theorem run : θ_run defs (onTc (τ := τ) (main (F := F))) ⟨m, fun _ => 0, ρ⟩ fun r => ∀ c : Dev nD,
      r.2.mem ((c.tc : Thread nD τ).loc main_v15) = ktail (accCE m c tlast.val tlast.isLt) (accCnt m c tlast.val tlast.isLt)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.Payload.lean ====
/-
  The kernel body's accumulating payloads read at an index, over the extended reals: the two initial stores are zero,
  one tile adds its cross-entropy sum to the running scalar, and its one-hot column sums to the running class counts.
-/
import proofs.«423522_j76991583748731_1_alg».proof.Proof.Gen.KernelIdeal.Skeleton
import proofs.«423522_j76991583748731_1_alg».proof.Proof.Spec
import proofs.«423522_j76991583748731_1_alg».proof.Proof.LibKeepdims
import proofs.«423522_j76991583748731_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.CE
open scoped BigOperators

variable [Facts]

/-- The first initial store is the zero scalar. -/
theorem pay2_apply : k0_pay2 (F := Ideal) (ix2 0 0) = 0 := Ideal.ofBits_zero_f32

/-- The second initial store is zero on every lane. -/
theorem pay3_apply (l : Fin 128) : k0_pay3 (F := Ideal) (ix2 0 l) = 0 := Ideal.ofBits_zero_f32

/-- The lane number of an entry, as a word. -/
private theorem lane_apply (r : Fin 8192) (l : Fin 128) :
    iota .tc S8192x128 32 [1] iota_S8192x128_d1_w32 (ix2 r l) = BitVec.ofNat 32 l.val :=
  iota_single_apply .tc S8192x128 32 1 iota_S8192x128_d1_w32 (ix2 r l)

/-- A one-bit comparison result, widened and read as a signed integer, is the real 1 or 0. -/
private theorem bit_to_real (b : Bool) :
    (((((BitVec.ofBool b).setWidth 32).toInt : ℤ) : ℝ) : EReal) = if b then 1 else 0 := by
  cases b
  · show (((0 : ℤ) : ℝ) : EReal) = 0
    simp
  · show (((1 : ℤ) : ℝ) : EReal) = 1
    simp

/-- The one-hot matrix of a tile of labels: 1 where the lane number is the row's label. -/
theorem pay4_apply (yb : Vec Ideal S8192x1 .i32) (r : Fin 8192) (l : Fin 128) :
    k0_pay4 (F := Ideal) yb (ix2 r l) = oh (yb (ix2 r 0)) l := by
  unfold k0_pay4
  show (((((BitVec.ofBool (iota .tc S8192x128 32 [1] iota_S8192x128_d1_w32 (ix2 r l)
      == broadcastTo S8192x128 (shapeCast S8192x1 yb shapeCasts_S8192x1_S8192x1) broadcasts_S8192x1_S8192x128 (ix2 r l))).setWidth 32).toInt : ℤ) : ℝ) : EReal) = _
  rw [bit_to_real, lane_apply, Cert.LibKeepdims.broadcastTo_a1_ab_apply, shapeCast_self]
  unfold oh
  by_cases h : BitVec.ofNat 32 l.val = yb (ix2 r 0)
  · rw [if_pos h, if_pos (by simpa using h)]
  · rw [if_neg h, if_neg (by simpa using h)]

/-- A lane number below 128, compared signed with 100, is below it exactly when the number is. -/
private theorem lane_slt (l : Fin 128) : IntOp.cmpi .slt (BitVec.ofNat 32 l.val) 100#32 = if l.val < 100 then 1#1 else 0#1 := by
  have hl := l.isLt
  have hn : (BitVec.ofNat 32 l.val).toNat = l.val := by
    rw [BitVec.toNat_ofNat]; omega
  have hi : (BitVec.ofNat 32 l.val).toInt = (l.val : ℤ) := by
    rw [BitVec.toInt_eq_toNat_of_lt (by rw [hn]; omega), hn]
  show BitVec.ofBool ((BitVec.ofNat 32 l.val).slt 100#32) = _
  rw [BitVec.slt, hi]
  have h100 : (100#32 : BitVec 32).toInt = 100 := by decide
  rw [h100]
  by_cases h : l.val < 100
  · rw [if_pos h, decide_eq_true (by omega)]; rfl
  · rw [if_neg h, decide_eq_false (by omega)]; rfl

/-- The masked scores of a tile: the matrix product on the class lanes, −∞ on the padding lanes. -/
private def V13 (xb : Vec Ideal S8192x128 .f32) (wb : Vec Ideal S128x128 .f32) : FVec Ideal S8192x128 .f32 :=
  select (cmpi .slt (iota .tc S8192x128 32 [1] iota_S8192x128_d1_w32) (broadcast S8192x128 100#32))
    (matmul dot_S8192x128_S128x128_S8192x128_1_0_0_1_n_n none (truncf .bf16 xb bitsLt_bf16_f32)
      (truncf .bf16 (shapeCast S128x128 wb shapeCasts_S128x128_S128x128) bitsLt_bf16_f32) (constant S8192x128 .f32 0x00000000#32))
    (broadcast S8192x128 (Named.named κ "neg_big" (0xF149F2CA#32 : BitVec (FTy.bits .f32))))

private theorem V13_apply (xb : Vec Ideal S8192x128 .f32) (wb : Vec Ideal S128x128 .f32) (r : Fin 8192) (l : Fin 128) :
    V13 xb wb (ix2 r l) = sel (mm xb wb r) l := by
  unfold V13
  rw [select_apply]
  show Scalar.select (IntOp.cmpi .slt (iota .tc S8192x128 32 [1] iota_S8192x128_d1_w32 (ix2 r l)) 100#32) _ _ = _
  rw [lane_apply, lane_slt]
  unfold sel
  by_cases h : l.val < 100
  · rw [if_pos h, if_pos h, select_one]
    show FloatOps.matmul (Cert.LibMatmulPlain.plainDims dot_S8192x128_S128x128_S8192x128_1_0_0_1_n_n_wf) none _ _ _ (ix2 r l) = _
    rw [Cert.LibMatmulPlain.matmul_zero_plain_apply]
    unfold mm
    refine Finset.sum_congr rfl fun k _ => ?_
    rw [truncf_apply, truncf_apply, shapeCast_self]
  · rw [if_neg h, if_neg h, select_zero]
    exact IdealRules.named_const.ideal_named_scalar κ "neg_big" _ ⊥ rfl

/-- The pattern of the maximum's start value denotes −∞. -/
private theorem ofBits_neg_inf : Ideal.ofBits .f32 0xFF800000#32 = ⊥ := by
  simp [Ideal.ofBits, Ideal.ieee]

/-- Putting lane k back into row r gives the entry (r, k). -/
private theorem lift_row (r : Fin 8192) (k : Fin 128) :
    reduces_S8192x128_S8192.lift (ix1 r) k = ix2 r k :=
  funext fun a => Fin.ext (by
    match a with
    | ⟨0, _⟩ => rfl
    | ⟨1, _⟩ => rfl)

/-- The row maxima of the masked scores, as a column. -/
private def V15 (xb : Vec Ideal S8192x128 .f32) (wb : Vec Ideal S128x128 .f32) : FVec Ideal S8192x1 .f32 :=
  shapeCast S8192x1 (multiReduction .maximumf [1] S8192 (V13 xb wb) 0xFF800000#32 reduces_S8192x128_S8192 (.inl rfl) rfl)
    shapeCasts_S8192_S8192x1

private theorem V15_apply (xb : Vec Ideal S8192x128 .f32) (wb : Vec Ideal S128x128 .f32) (r : Fin 8192) :
    V15 xb wb (ix2 r 0) = kmax (mm xb wb r) := by
  unfold V15
  rw [Cert.LibKeepdims.shapeCast_a_a1_apply]
  refine (Ideal.multiReduction_maximumf_single (a := 1) (V13 xb wb) _ reduces_S8192x128_S8192 _ _ (ix1 r)).trans ?_
  unfold kmax
  show Finset.fold max (Ideal.ofBits .f32 0xFF800000#32) _ _ = _
  rw [ofBits_neg_inf]
  refine congrArg (fun f => Finset.fold max ⊥ f (Finset.univ : Finset (Fin 128))) (funext fun (k : Fin 128) => ?_)
  exact (congrArg (V13 xb wb) (lift_row r k)).trans (V13_apply xb wb r k)

/-- A row sum kept as a column: at row r, the sum over the lanes of the row's entries. -/
private theorem rowsum_apply (v : FVec Ideal S8192x128 .f32) (r : Fin 8192) :
    shapeCast S8192x1 (multiReduction .add [1] S8192 v 0x00000000#32 reduces_S8192x128_S8192 (.inl rfl) rfl)
      shapeCasts_S8192_S8192x1 (ix2 r 0) = ∑ l : Fin 128, v (ix2 r l) := by
  rw [Cert.LibKeepdims.shapeCast_a_a1_apply]
  refine (Ideal.multiReduction_add_single (a := 1) v _ reduces_S8192x128_S8192 _ _ (ix1 r)).trans ?_
  refine Finset.sum_congr rfl fun (k : Fin 128) _ => ?_
  exact congrArg v (lift_row r k)

/-- Log-sum-exp of the masked scores, per row, as a column. -/
private def V22 (xb : Vec Ideal S8192x128 .f32) (wb : Vec Ideal S128x128 .f32) : FVec Ideal S8192x1 .f32 :=
  addf (log (shapeCast S8192x1 (multiReduction .add [1] S8192
      (exp (subf (V13 xb wb) (broadcastTo S8192x128 (V15 xb wb) broadcasts_S8192x1_S8192x128)))
      0x00000000#32 reduces_S8192x128_S8192 (.inl rfl) rfl) shapeCasts_S8192_S8192x1)) (V15 xb wb)

private theorem V22_apply (xb : Vec Ideal S8192x128 .f32) (wb : Vec Ideal S128x128 .f32) (r : Fin 8192) :
    V22 xb wb (ix2 r 0)
      = Ideal.log (∑ l : Fin 128, Ideal.exp (sel (mm xb wb r) l - kmax (mm xb wb r))) + kmax (mm xb wb r) := by
  unfold V22
  rw [addf_apply, V15_apply]
  show Ideal.log (shapeCast S8192x1 _ shapeCasts_S8192_S8192x1 (ix2 r 0)) + _ = _
  rw [rowsum_apply]
  refine congrArg (fun z => Ideal.log z + kmax (mm xb wb r)) (Finset.sum_congr rfl fun l _ => ?_)
  show Ideal.exp (V13 xb wb (ix2 r l) - broadcastTo S8192x128 (V15 xb wb) broadcasts_S8192x1_S8192x128 (ix2 r l)) = _
  rw [V13_apply, Cert.LibKeepdims.broadcastTo_a1_ab_apply, V15_apply]

/-- The one-hot pick of the label's masked score, per row, as a column. -/
private def V31 (xb : Vec Ideal S8192x128 .f32) (wb : Vec Ideal S128x128 .f32) (yb : Vec Ideal S8192x1 .i32) :
    FVec Ideal S8192x1 .f32 :=
  shapeCast S8192x1 (multiReduction .add [1] S8192 (mulf (V13 xb wb) (k0_pay4 yb))
    0x00000000#32 reduces_S8192x128_S8192 (.inl rfl) rfl) shapeCasts_S8192_S8192x1

private theorem V31_apply (xb : Vec Ideal S8192x128 .f32) (wb : Vec Ideal S128x128 .f32) (yb : Vec Ideal S8192x1 .i32)
    (r : Fin 8192) :
    V31 xb wb yb (ix2 r 0) = ∑ l : Fin 128, sel (mm xb wb r) l * oh (yb (ix2 r 0)) l := by
  unfold V31
  rw [rowsum_apply]
  refine Finset.sum_congr rfl fun l _ => ?_
  rw [mulf_apply, V13_apply, pay4_apply]

/-- The per-row cross-entropy values of a tile, as a column. -/
private def V32 (xb : Vec Ideal S8192x128 .f32) (wb : Vec Ideal S128x128 .f32) (yb : Vec Ideal S8192x1 .i32) :
    FVec Ideal S8192x1 .f32 :=
  subf (V22 xb wb) (V31 xb wb yb)

private theorem V32_apply (xb : Vec Ideal S8192x128 .f32) (wb : Vec Ideal S128x128 .f32) (yb : Vec Ideal S8192x1 .i32)
    (r : Fin 8192) :
    V32 xb wb yb (ix2 r 0) = kerRow (mm xb wb r) (yb (ix2 r 0)) := by
  unfold V32 kerRow
  rw [subf_apply, V22_apply, V31_apply]

/-- The rows of a [1, 8192, 1] array are its indices. -/
private def rowEquiv : Fin 8192 ≃ S1x8192x1.Idx where
  toFun r := ix3 0 r 0
  invFun i := i 1
  left_inv _ := rfl
  right_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- A column viewed as [1, 8192, 1] reads its row. -/
private theorem cast3_apply (v : FVec Ideal S8192x1 .f32) (r : Fin 8192) :
    shapeCast S1x8192x1 v shapeCasts_S8192x1_S1x8192x1 (ix3 0 r 0) = v (ix2 r 0) :=
  shapeCast_apply v shapeCasts_S8192x1_S1x8192x1 _ _ (by
    rw [Shape.rowMajor_val_two, Shape.rowMajor_val_three]
    show r.val * 1 + 0 = (0 * 8192 + r.val) * 1 + 0
    omega)

/-- The sum of a column over both of its non-unit views, read out as a scalar: the sum over the rows. -/
private theorem total_apply (v : FVec Ideal S8192x1 .f32) :
    extractAt ![0, 0, 0] (shapeCast S1x1x1 (multiReduction .add [1, 2] S1
        (shapeCast S1x8192x1 v shapeCasts_S8192x1_S1x8192x1) 0x00000000#32 reduces_S1x8192x1_S1 (.inl rfl) rfl)
        shapeCasts_S1_S1x1x1) inpos_S1x1x1_p0_0_0
      = ∑ r : Fin 8192, v (ix2 r 0) := by
  unfold extractAt shapeCast
  refine (Ideal.multiReduction_add_total _ _ reduces_S1x8192x1_S1
    (fun b => by match b with | ⟨0, _⟩ => rfl) _ _ _).trans ?_
  rw [← Equiv.sum_comp rowEquiv]
  exact Finset.sum_congr rfl fun r _ => cast3_apply v r

/-- ONE TILE'S STEP OF THE RUNNING SUM: the accumulator plus the tile's cross-entropy sum. -/
theorem pay5_apply (xb : Vec Ideal S8192x128 .f32) (wb : Vec Ideal S128x128 .f32) (yb : Vec Ideal S8192x1 .i32)
    (acc : Vec Ideal S1x1 .f32) :
    k0_pay5 (F := Ideal) xb wb yb acc (ix2 0 0) = acc (ix2 0 0) + tileCE xb wb yb := by
  have e : k0_pay5 (F := Ideal) xb wb yb acc
      = addf (shapeCast S1x1 acc shapeCasts_S1x1_S1x1)
          (broadcast S1x1 (extractAt ![0, 0, 0] (shapeCast S1x1x1 (multiReduction .add [1, 2] S1
            (shapeCast S1x8192x1 (V32 xb wb yb) shapeCasts_S8192x1_S1x8192x1) 0x00000000#32 reduces_S1x8192x1_S1 (.inl rfl) rfl)
            shapeCasts_S1_S1x1x1) inpos_S1x1x1_p0_0_0)) := rfl
  rw [e, addf_apply, shapeCast_self, broadcast_apply, total_apply]
  unfold tileCE
  exact congrArg (acc (ix2 0 0) + ·) (Finset.sum_congr rfl fun r _ => V32_apply xb wb yb r)

/-- Putting row k back into lane l gives the entry (k, l). -/
private theorem lift_col (l : Fin 128) (k : Fin 8192) :
    reduces_S8192x128_S128.lift (ix1 l) k = ix2 k l :=
  funext fun a => Fin.ext (by
    match a with
    | ⟨0, _⟩ => rfl
    | ⟨1, _⟩ => rfl)

/-- A lane vector viewed as one row reads its lane. -/
private theorem castRow_apply (v : FVec Ideal S128 .f32) (l : Fin 128) :
    shapeCast S1x128 v shapeCasts_S128_S1x128 (ix2 0 l) = v (ix1 l) :=
  shapeCast_apply v shapeCasts_S128_S1x128 _ _ (by
    rw [Shape.rowMajor_val_one, Shape.rowMajor_val_two]
    show l.val = 0 * 128 + l.val
    omega)

/-- ONE TILE'S STEP OF THE RUNNING CLASS COUNTS: the accumulator plus the column sums of the tile's one-hot matrix. -/
theorem pay1_apply (yb : Vec Ideal S8192x1 .i32) (acc : Vec Ideal S1x128 .f32) (l : Fin 128) :
    k0_pay1 (F := Ideal) (k0_pay4 (F := Ideal) yb) acc (ix2 0 l) = acc (ix2 0 l) + tileCnt yb l := by
  unfold k0_pay1
  rw [addf_apply, shapeCast_self, castRow_apply]
  refine congrArg (acc (ix2 0 l) + ·) ?_
  refine (Ideal.multiReduction_add_single (a := 0) (k0_pay4 (F := Ideal) yb) _ reduces_S8192x128_S128 _ _ (ix1 l)).trans ?_
  unfold tileCnt
  refine Finset.sum_congr rfl fun (k : Fin 8192) _ => ?_
  exact (congrArg (k0_pay4 (F := Ideal) yb) (lift_col l k)).trans (pay4_apply yb k l)

end Cert.KernelIdeal.Pay

end
-- ==== Proof.Blocks.lean ====
/-
  What each input window's block holds at grid point t, in terms of the three argument arrays.

  Window 0's block t is rows 8192 t … 8192 t + 8191 of the samples x. Window 1's block t is the same rows of the labels y
  viewed as a one-column matrix: the column at (n, 0) is the vector at n. Window 2's one block is the whole padded
  transposed anchors: the anchors' 100 rows are written over rows 0 … 99 of a zero 128 × 128 matrix — an overwriting
  scatter whose update entry (e, k) lands at (e, k), distinct entries at distinct places, so the result holds a (e, k)
  at (e, k) for e < 100 and 0 below — and the matrix is transposed: entry (k, l) is a (l, k) for l < 100 and 0 for l ≥ 100.
-/
import proofs.«423522_j76991583748731_1_alg».proof.Proof.Gen.KernelIdeal.Frame
import proofs.«423522_j76991583748731_1_alg».proof.Proof.Spec
import proofs.«423522_j76991583748731_1_alg».proof.Proof.LibKeepdims
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Blocks

open Idealize.ShloMosaic Idealize.ShloMosaic.TcCoe Idealize.ShloMosaic.ValueIdx Idealize.SL.Sem Cert.KernelIdeal Cert.KernelIdeal.Gen Cert.CE

/-! ## A fold of overwriting steps -/

section Fold
variable {ι κ α : Type} (step : (ι → α) → κ → (ι → α)) (ρ : κ → ι) (v : κ → α)

/-- A left fold of overwriting steps leaves an entry no step addresses as it was. -/
private theorem foldl_set_miss (hmiss : ∀ r n i, i ≠ ρ n → step r n i = r i) (i : ι) :
    ∀ (l : List κ) (x : ι → α), (∀ n ∈ l, i ≠ ρ n) → l.foldl step x i = x i
  | [], x, _ => rfl
  | a :: l, x, h => by
    rw [List.foldl_cons, foldl_set_miss hmiss i l (step x a) fun n hn => h n (List.mem_cons_of_mem a hn)]
    exact hmiss x a i (h a List.mem_cons_self)

/-- A left fold of overwriting steps at pairwise distinct addresses leaves, at a step's address, that step's value. -/
private theorem foldl_set_hit (hρ : Function.Injective ρ) (hhit : ∀ r n, step r n (ρ n) = v n)
    (hmiss : ∀ r n i, i ≠ ρ n → step r n i = r i) (n : κ) :
    ∀ (l : List κ) (x : ι → α), l.Nodup → n ∈ l → l.foldl step x (ρ n) = v n
  | [], x, _, hn => absurd hn List.not_mem_nil
  | a :: l, x, hnd, hn => by
    rw [List.foldl_cons]
    rcases List.mem_cons.mp hn with rfl | hn'
    · rw [foldl_set_miss step ρ hmiss (ρ n) l (step x n) fun n' hn' he =>
        (List.nodup_cons.mp hnd).1 (hρ he ▸ hn')]
      exact hhit x n
    · exact foldl_set_hit hρ hhit hmiss n l (step x a) (List.nodup_cons.mp hnd).2 hn'

end Fold

/-- A scatter that overwrites, every update entry j landing inside the operand at ρ j for an injective ρ: the result holds
    update entry j at ρ j, and the operand's own entry wherever no update lands. -/
private theorem scatter_set {α : Type} {s si u : Shape} {w : Nat} (d : ScatterDims s si u) (x : s.Idx → α) (idx : IVec si w)
    (upd : u.Idx → α) (ρ : u.Idx → s.Idx) (hρ : Function.Injective ρ) (hres : ∀ j, d.resultIdx? j idx = some (ρ j)) :
    (∀ j, Host.scatter d (fun _ b => b) x idx upd (ρ j) = upd j)
      ∧ ∀ i, (∀ j, i ≠ ρ j) → Host.scatter d (fun _ b => b) x idx upd i = x i := by
  have hhit : ∀ (r : s.Idx → α) (n : Fin u.numel),
      (match d.resultIdx? (u.rowMajor.symm n) idx with
        | some i => fun i' => if i' = i then (fun _ b => b) (r i) (upd (u.rowMajor.symm n)) else r i'
        | none => r) (ρ (u.rowMajor.symm n)) = upd (u.rowMajor.symm n) := by
    intro r n
    rw [hres]
    exact if_pos rfl
  have hmiss : ∀ (r : s.Idx → α) (n : Fin u.numel) (i : s.Idx), i ≠ ρ (u.rowMajor.symm n) →
      (match d.resultIdx? (u.rowMajor.symm n) idx with
        | some i => fun i' => if i' = i then (fun _ b => b) (r i) (upd (u.rowMajor.symm n)) else r i'
        | none => r) i = r i := by
    intro r n i hi
    rw [hres]
    exact if_neg hi
  have hinj : Function.Injective fun n : Fin u.numel => ρ (u.rowMajor.symm n) :=
    hρ.comp u.rowMajor.symm.injective
  constructor
  · intro j
    have h := foldl_set_hit _ (fun n : Fin u.numel => ρ (u.rowMajor.symm n)) (fun n => upd (u.rowMajor.symm n)) hinj hhit hmiss
      (u.rowMajor j) (List.finRange u.numel) x (List.nodup_finRange _) (List.mem_finRange _)
    simp only [Equiv.symm_apply_apply] at h
    exact h
  · intro i hi
    exact foldl_set_miss _ (fun n : Fin u.numel => ρ (u.rowMajor.symm n)) hmiss i (List.finRange u.numel) x
      fun n _ => hi _

/-! ## A block of rows written at the top of a matrix -/

/-- An entry of a two-element list. -/
private theorem getElem_of_eq_pair {α : Type} (l : List α) (a b : α) (k : Nat) (h : k < l.length) (hl : l = [a, b]) :
    l[k] = if k = 0 then a else b := by
  subst hl
  match k, h with
  | 0, _ => rfl
  | 1, _ => rfl

section Rows
variable {N D n w : Nat} (d : ScatterDims ⟨2, ![N, D]⟩ ⟨1, ![1]⟩ ⟨2, ![n, D]⟩)

/-- No axis of the operand is inserted: both are window axes. -/
private theorem rows_sKept (hiw : d.insertedWindowDims = []) : d.sKept = [0, 1] := by
  show Shape.kept _ d.insertedWindowDims = [0, 1]
  rw [hiw]; rfl

/-- On the row axis the window starts at the one index word, read signed. -/
private theorem rows_start0 (hsd : d.scatterDimsToOperandDims = [0]) (j : (⟨2, ![n, D]⟩ : Shape).Idx)
    (idx : IVec ⟨1, ![1]⟩ w) (hidx : ∀ k, (idx k).toInt = 0) : d.start j idx 0 = 0 := by
  have hm : (0 : Fin 2) ∈ d.scatterDimsToOperandDims := by rw [hsd]; exact List.mem_singleton.mpr rfl
  unfold ScatterDims.start
  rw [dif_pos hm]
  exact hidx _

/-- On the column axis, which the index vector does not address, the window starts at 0. -/
private theorem rows_start1 (hsd : d.scatterDimsToOperandDims = [0]) (j : (⟨2, ![n, D]⟩ : Shape).Idx)
    (idx : IVec ⟨1, ![1]⟩ w) : d.start j idx 1 = 0 := by
  have hm : (1 : Fin 2) ∉ d.scatterDimsToOperandDims := by rw [hsd]; simp
  unfold ScatterDims.start
  rw [dif_neg hm]

/-- The window coordinate on the row axis is the update's row. -/
private theorem rows_window0 (huw : d.updateWindowDims = [0, 1]) (hiw : d.insertedWindowDims = [])
    (j : (⟨2, ![n, D]⟩ : Shape).Idx) : d.window j 0 = (j 0).val := by
  have hk := rows_sKept d hiw
  have hm : (0 : Fin 2) ∈ d.sKept := by rw [hk]; simp
  unfold ScatterDims.window
  rw [dif_pos hm, getElem_of_eq_pair _ _ _ _ _ huw, if_pos (by rw [hk]; rfl)]

/-- The window coordinate on the column axis is the update's column. -/
private theorem rows_window1 (huw : d.updateWindowDims = [0, 1]) (hiw : d.insertedWindowDims = [])
    (j : (⟨2, ![n, D]⟩ : Shape).Idx) : d.window j 1 = (j 1).val := by
  have hk := rows_sKept d hiw
  have hm : (1 : Fin 2) ∈ d.sKept := by rw [hk]; simp
  unfold ScatterDims.window
  rw [dif_pos hm, getElem_of_eq_pair _ _ _ _ _ huw, if_neg (by rw [hk]; exact (by decide : ¬List.idxOf (1 : Fin 2) [(0 : Fin 2), 1] = 0))]

/-- Where update entry (e, k) lands: at row e, column k of the operand. -/
private def rowsAt (hnN : n ≤ N) (j : (⟨2, ![n, D]⟩ : Shape).Idx) : (⟨2, ![N, D]⟩ : Shape).Idx :=
  ix2 ⟨(j 0).val, by have := idx2_lt0 j; omega⟩ (j 1)

private theorem rowsAt_injective (hnN : n ≤ N) : Function.Injective (rowsAt (D := D) hnN) := by
  intro j j' h
  have e0 : (j 0).val = (j' 0).val := congrArg (fun f => (f 0).val) h
  have e1 : j 1 = j' 1 := congrFun h 1
  rw [eq_ix2 j, eq_ix2 j', Fin.ext e0, e1]

private theorem rows_resultIdx (huw : d.updateWindowDims = [0, 1]) (hiw : d.insertedWindowDims = [])
    (hsd : d.scatterDimsToOperandDims = [0]) (hnN : n ≤ N) (idx : IVec ⟨1, ![1]⟩ w) (hidx : ∀ k, (idx k).toInt = 0)
    (j : (⟨2, ![n, D]⟩ : Shape).Idx) : d.resultIdx? j idx = some (rowsAt hnN j) := by
  have h0 := rows_start0 d hsd j idx hidx
  have h1 := rows_start1 d hsd j idx
  have w0 := rows_window0 d huw hiw j
  have w1 := rows_window1 d huw hiw j
  have hj0 : (j 0).val < n := idx2_lt0 j
  have hj1 : (j 1).val < D := idx2_lt1 j
  have hr : ∀ a, 0 ≤ d.start j idx a + (d.window j a : Int) ∧
      d.start j idx a + (d.window j a : Int) < ((⟨2, ![N, D]⟩ : Shape).size a : Int) := by
    intro a
    match a with
    | ⟨0, _⟩ =>
      show 0 ≤ d.start j idx 0 + (d.window j 0 : Int) ∧ d.start j idx 0 + (d.window j 0 : Int) < (N : Int)
      rw [h0, w0]; omega
    | ⟨1, _⟩ =>
      show 0 ≤ d.start j idx 1 + (d.window j 1 : Int) ∧ d.start j idx 1 + (d.window j 1 : Int) < (D : Int)
      rw [h1, w1]; omega
  unfold ScatterDims.resultIdx?
  rw [dif_pos hr]
  congr 1
  funext a
  apply Fin.ext
  match a with
  | ⟨0, _⟩ =>
    show (d.start j idx 0 + (d.window j 0 : Int)).toNat = (j 0).val
    rw [h0, w0]; omega
  | ⟨1, _⟩ =>
    show (d.start j idx 1 + (d.window j 1 : Int)).toNat = (j 1).val
    rw [h1, w1]; omega

/-- n rows written over the top of an N-row matrix at the index word 0: row r of the result is update row r when r < n,
    and the operand's own row otherwise. -/
private theorem scatter_rows_apply {α : Type} (huw : d.updateWindowDims = [0, 1]) (hiw : d.insertedWindowDims = [])
    (hsd : d.scatterDimsToOperandDims = [0]) (hnN : n ≤ N) (x : (⟨2, ![N, D]⟩ : Shape).Idx → α)
    (idx : IVec ⟨1, ![1]⟩ w) (hidx : ∀ k, (idx k).toInt = 0) (upd : (⟨2, ![n, D]⟩ : Shape).Idx → α) (r : Fin N) (k : Fin D) :
    Host.scatter d (fun _ b => b) x idx upd (ix2 r k) = if h : r.val < n then upd (ix2 ⟨r.val, h⟩ k) else x (ix2 r k) := by
  have hs := scatter_set d x idx upd (rowsAt hnN) (rowsAt_injective hnN) (rows_resultIdx d huw hiw hsd hnN idx hidx)
  by_cases h : r.val < n
  · rw [dif_pos h]
    exact hs.1 (ix2 ⟨r.val, h⟩ k)
  · rw [dif_neg h]
    refine hs.2 (ix2 r k) fun j he => h ?_
    have e0 : r.val = (j 0).val := congrArg (fun f => (f 0).val) he
    have := idx2_lt0 j
    omega

end Rows

/-! ## The input windows' blocks -/

/-- Where each input window's block sits at grid point t: window 0 and window 1 at block row t, column 0; window 2 at the origin. -/
private theorem idx_w0 : ∀ t : Fin grid0.N, win0_0.index t 0 = t.val ∧ win0_0.index t 1 = 0 := by decide +kernel
private theorem idx_w1 : ∀ t : Fin grid0.N, win0_1.index t 0 = t.val ∧ win0_1.index t 1 = 0 := by decide +kernel
private theorem idx_w2 : ∀ t : Fin grid0.N, win0_2.index t 0 = 0 ∧ win0_2.index t 1 = 0 := by decide +kernel

variable [Facts] (m : (ℓ : Loc nD τ sig) → Buf (Elt Ideal) ℓ)

theorem iblk0_eq (c : Dev nD) (t : Fin cfg0.N) :
    (iblk m c 0 t : Vec Ideal S8192x128 .f32) = xblk (m ((c : Thread nD τ).loc main_arg0)) (Fin.cast N_0 t) := by
  funext j
  unfold iblk
  rw [View.read_apply]
  show V m c main_arg0 _ = _
  refine (congrFun (V_main_arg0 m c) _).trans ?_
  unfold xblk
  congr 1
  funext a
  apply Fin.ext
  match a with
  | ⟨0, _⟩ => show win0_0.index t 0 * 8192 + 1 * (j 0).val = 8192 * t.val + (j 0).val; rw [(idx_w0 t).1]; omega
  | ⟨1, _⟩ => show win0_0.index t 1 * 128 + 1 * (j 1).val = (j 1).val; rw [(idx_w0 t).2]; omega

/-- The labels' column as the region finds it: the label vector viewed as a one-column matrix. -/
private theorem V_main_v4 (c : Dev nD) :
    (V m c main_v4 : IVec S1048576x1 32)
      = shapeCast S1048576x1 (m ((c : Thread nD τ).loc main_arg2)) shapeCasts_S1048576_S1048576x1 := by
  show StableHlo.after hostOps0 (fun b => m (c, b)) (Proc.devRef .tc main_v4) = _
  after_results
  rfl

theorem iblk1_eq (c : Dev nD) (t : Fin cfg0.N) :
    (iblk m c 1 t : Vec Ideal S8192x1 .i32) = yblk (m ((c : Thread nD τ).loc main_arg2)) (Fin.cast N_0 t) := by
  funext j
  unfold iblk
  rw [View.read_apply]
  show V m c main_v4 _ = _
  refine (congrFun (V_main_v4 m c) _).trans ?_
  unfold yblk
  refine (congrArg _ ?_).trans
    (Cert.LibKeepdims.shapeCast_a_a1_apply (m ((c : Thread nD τ).loc main_arg2)) shapeCasts_S1048576_S1048576x1
      (rowOf (Fin.cast N_0 t) (j 0)) (j 1))
  funext a
  apply Fin.ext
  match a with
  | ⟨0, _⟩ => show win0_1.index t 0 * 8192 + 1 * (j 0).val = 8192 * t.val + (j 0).val; rw [(idx_w1 t).1]; omega
  | ⟨1, _⟩ => show win0_1.index t 1 * 1 + 1 * (j 1).val = (j 1).val; rw [(idx_w1 t).2]; omega

/-- The padded transposed anchors as the region finds them: the transpose of the anchors' rows written over the top of a
    zero matrix. -/
private theorem V_main_v3 (c : Dev nD) :
    (V m c main_v3 : Vec Ideal S128x128 .f32)
      = transpose S128x128 [1, 0]
          (Host.scatter scatter_S128x128_S1_S100x128_01_n_0_0 (fun _ b => b)
            (broadcastInDim S128x128 ![] bcast_S_S128x128 (constant (F := Ideal) S_ .f32 0x00000000#32))
            (broadcastInDim S1 ![] bcast_S_S1 (constantI S_ 32 0#32))
            (m ((c : Thread nD τ).loc main_arg1)))
          transposes_S128x128_S128x128_1_0 := by
  show StableHlo.after hostOps0 (fun b => m (c, b)) (Proc.devRef .tc main_v3) = _
  after_results

/-- The transpose of the anchors' rows written over the top of a zero matrix is the padded transposed anchors: entry (k, l)
    is the anchors' entry (l, k) on a class lane l < 100, and 0 on a padding lane. -/
private theorem wpad_read (a : Vec Ideal S100x128 .f32) (j : S128x128.Idx) :
    transpose S128x128 [1, 0]
        (Host.scatter scatter_S128x128_S1_S100x128_01_n_0_0 (fun _ b => b)
          (broadcastInDim S128x128 ![] bcast_S_S128x128 (constant (F := Ideal) S_ .f32 0x00000000#32))
          (broadcastInDim S1 ![] bcast_S_S1 (constantI S_ 32 0#32)) a)
        transposes_S128x128_S128x128_1_0 j
      = wpad a j := by
  refine (transpose_apply [1, 0] _ transposes_S128x128_S128x128_1_0 j (ix2 (j 1) (j 0)) ?_).trans ?_
  · intro b
    match b with
    | ⟨0, _⟩ => rfl
    | ⟨1, _⟩ => rfl
  · refine (scatter_rows_apply scatter_S128x128_S1_S100x128_01_n_0_0 rfl rfl rfl (by decide) _ _ (fun _ => rfl) a
      (j 1) (j 0)).trans ?_
    unfold wpad
    by_cases h : (j 1).val < 100
    · rw [dif_pos h, dif_pos h]
    · rw [dif_neg h, dif_neg h]
      exact Ideal.ofBits_zero_f32

theorem iblk2_eq (c : Dev nD) (t : Fin cfg0.N) :
    (iblk m c 2 t : Vec Ideal S128x128 .f32) = wpad (m ((c : Thread nD τ).loc main_arg1)) := by
  funext j
  unfold iblk
  rw [View.read_apply]
  show V m c main_v3 _ = _
  refine (congrFun (V_main_v3 m c) _).trans ?_
  refine (congrArg _ ?_).trans (wpad_read (m ((c : Thread nD τ).loc main_arg1)) j)
  funext a
  apply Fin.ext
  match a with
  | ⟨0, _⟩ => show win0_2.index t 0 * 128 + 1 * (j 0).val = (j 0).val; rw [(idx_w2 t).1]; omega
  | ⟨1, _⟩ => show win0_2.index t 1 * 128 + 1 * (j 1).val = (j 1).val; rw [(idx_w2 t).2]; omega

end Cert.KernelIdeal.Blocks

end
-- ==== Proof.RowMath.lean ====
/-
  One sample, at the extended reals. With real scores s_0 … s_99 on the class lanes and −∞ on the 28 padding lanes, the
  kernel's row maximum is the reference's maximum M of the hundred scores, its sum of exponentials is the reference's sum
  (exp(−∞ − M) = 0 on the padding lanes), its one-hot product picks s_y (0 · (−∞) = 0 on the padding lanes), and
  (log S + M) − s_y = −((s_y − M) − log S) over the reals.
-/
import proofs.«423522_j76991583748731_1_alg».proof.Proof.Spec
import Mathlib.Data.EReal.Operations
import Mathlib.Data.Finset.Fold
import Mathlib.Algebra.BigOperators.Fin
import Mathlib.Order.Fin.Basic

noncomputable section

namespace Cert.CE

open Idealize.ShloMosaic Idealize.ShloMosaic.ValueIdx
open scoped BigOperators

/-- The coercion of a finite real sum is the sum of the coercions. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over the 128 lanes splits into the 100 class lanes and the 28 padding lanes. -/
private theorem sum_lanes (F : Fin 128 → EReal) :
    ∑ l : Fin 128, F l
      = ∑ c : Fin 100, F (Fin.castAdd 28 c) + ∑ p : Fin 28, F (Fin.natAdd 100 p) :=
  Fin.sum_univ_add (a := 100) (b := 28) F

section
variable (s : Fin 100 → ℝ) (g : Fin 128 → EReal)
  (hg : ∀ (l : Fin 128) (h : l.val < 100), g l = ((s ⟨l.val, h⟩ : ℝ) : EReal))
include hg

/-- On a class lane the kernel's lane value is the real score. -/
private theorem sel_class (c : Fin 100) : sel g (Fin.castAdd 28 c) = ((s c : ℝ) : EReal) := by
  have h : (Fin.castAdd 28 c).val < 100 := c.isLt
  unfold sel
  rw [if_pos h, hg _ h]
  rfl

omit hg in
/-- On a padding lane the kernel's lane value is −∞. -/
private theorem sel_pad (p : Fin 28) : sel g (Fin.natAdd 100 p) = ⊥ := by
  have h : ¬ (Fin.natAdd 100 p).val < 100 := by simp [Fin.natAdd]
  unfold sel
  rw [if_neg h]

/-- Every lane value is a class score or −∞, so it is at most any bound of the scores. -/
private theorem sel_le (c0 : Fin 100) (h0 : ∀ c, s c ≤ s c0) (l : Fin 128) :
    sel g l ≤ ((s c0 : ℝ) : EReal) := by
  unfold sel
  by_cases h : l.val < 100
  · rw [if_pos h, hg l h]
    exact EReal.coe_le_coe_iff.mpr (h0 _)
  · rw [if_neg h]
    exact bot_le

/-- The kernel's row maximum is the largest score. -/
private theorem kmax_eq (c0 : Fin 100) (h0 : ∀ c, s c ≤ s c0) : kmax g = ((s c0 : ℝ) : EReal) := by
  unfold kmax
  apply le_antisymm
  · rw [Finset.fold_max_le]
    exact ⟨bot_le, fun l _ => sel_le s g hg c0 h0 l⟩
  · rw [Finset.le_fold_max]
    exact Or.inr ⟨Fin.castAdd 28 c0, Finset.mem_univ _, (sel_class s g hg c0).ge⟩

omit hg in
/-- The reference's row maximum is the largest score. -/
private theorem rmax_eq (c0 : Fin 100) (h0 : ∀ c, s c ≤ s c0) :
    rmax (fun c => ((s c : ℝ) : EReal)) = ((s c0 : ℝ) : EReal) := by
  unfold rmax
  apply le_antisymm
  · rw [Finset.fold_max_le]
    exact ⟨bot_le, fun c _ => EReal.coe_le_coe_iff.mpr (h0 c)⟩
  · rw [Finset.le_fold_max]
    exact Or.inr ⟨c0, Finset.mem_univ _, le_rfl⟩

/-- The 128-lane sum of exponentials is the real sum over the 100 classes. -/
private theorem expsum_lanes (M : ℝ) :
    ∑ l : Fin 128, Ideal.exp (sel g l - (M : EReal))
      = ((∑ c : Fin 100, Real.exp (s c - M) : ℝ) : EReal) := by
  rw [sum_lanes, coe_sum]
  have h1 : ∀ c : Fin 100, Ideal.exp (sel g (Fin.castAdd 28 c) - (M : EReal))
      = ((Real.exp (s c - M) : ℝ) : EReal) := by
    intro c
    rw [sel_class s g hg c]
    rfl
  have h2 : ∀ p : Fin 28, Ideal.exp (sel g (Fin.natAdd 100 p) - (M : EReal)) = 0 := by
    intro p
    rw [sel_pad g p, EReal.bot_sub]
    rfl
  rw [Finset.sum_congr rfl (fun c _ => h1 c), Finset.sum_congr rfl (fun p _ => h2 p),
    Finset.sum_const_zero, add_zero]

end

/-- Two class numbers give the same 32-bit word only if they are equal. -/
private theorem ofNat_eq_iff {a b : ℕ} (ha : a < 128) (hb : b < 128) :
    BitVec.ofNat 32 a = BitVec.ofNat 32 b ↔ a = b := by
  constructor
  · intro h
    have := congrArg BitVec.toNat h
    simp only [BitVec.toNat_ofNat] at this
    omega
  · intro h; rw [h]

section
variable (s : Fin 100 → ℝ) (g : Fin 128 → EReal)
  (hg : ∀ (l : Fin 128) (h : l.val < 100), g l = ((s ⟨l.val, h⟩ : ℝ) : EReal))
include hg

/-- The one-hot product picks the label's score. -/
private theorem pick_lanes (j : Fin 100) :
    ∑ l : Fin 128, sel g l * oh (BitVec.ofNat 32 j.val) l = ((s j : ℝ) : EReal) := by
  rw [sum_lanes]
  have h1 : ∀ c : Fin 100, sel g (Fin.castAdd 28 c) * oh (BitVec.ofNat 32 j.val) (Fin.castAdd 28 c)
      = if c = j then ((s c : ℝ) : EReal) else 0 := by
    intro c
    rw [sel_class s g hg c]
    unfold oh
    have hc : (Fin.castAdd 28 c).val = c.val := rfl
    rw [hc]
    by_cases h : c = j
    · rw [if_pos h, if_pos (by rw [h]), mul_one]
    · have h' : ¬ BitVec.ofNat 32 c.val = BitVec.ofNat 32 j.val := by
        rw [ofNat_eq_iff (by omega) (by omega)]
        exact fun e => h (Fin.ext e)
      rw [if_neg h, if_neg h', mul_zero]
  have h2 : ∀ p : Fin 28, sel g (Fin.natAdd 100 p) * oh (BitVec.ofNat 32 j.val) (Fin.natAdd 100 p) = 0 := by
    intro p
    unfold oh
    have hp : (Fin.natAdd 100 p).val = 100 + p.val := rfl
    have h' : ¬ BitVec.ofNat 32 (Fin.natAdd 100 p).val = BitVec.ofNat 32 j.val := by
      rw [hp, ofNat_eq_iff (by omega) (by omega)]
      omega
    rw [if_neg h', mul_zero]
  rw [Finset.sum_congr rfl (fun c _ => h1 c), Finset.sum_congr rfl (fun p _ => h2 p),
    Finset.sum_const_zero, add_zero, Finset.sum_ite_eq' Finset.univ j, if_pos (Finset.mem_univ _)]

end

/-- For real scores and a label that is a class, the kernel's 128-lane value of a sample is the reference's. -/
theorem kerRow_eq_refRow (s : Fin 100 → ℝ) (g : Fin 128 → EReal)
    (hg : ∀ (l : Fin 128) (h : l.val < 100), g l = ((s ⟨l.val, h⟩ : ℝ) : EReal)) (j : Fin 100) :
    kerRow g (BitVec.ofNat 32 j.val) = refRow (fun c => ((s c : ℝ) : EReal)) j := by
  obtain ⟨c0, -, h0⟩ := Finset.exists_max_image (Finset.univ : Finset (Fin 100)) s Finset.univ_nonempty
  have h0' : ∀ c, s c ≤ s c0 := fun c => h0 c (Finset.mem_univ c)
  have hS : 0 < ∑ c : Fin 100, Real.exp (s c - s c0) :=
    Finset.sum_pos (fun c _ => Real.exp_pos _) Finset.univ_nonempty
  have hlog : Ideal.log ((∑ c : Fin 100, Real.exp (s c - s c0) : ℝ) : EReal)
      = ((Real.log (∑ c : Fin 100, Real.exp (s c - s c0)) : ℝ) : EReal) := by
    rw [Ideal.log_coe, if_neg (not_le.mpr hS)]
  have hR : ∑ c : Fin 100, Ideal.exp (((s c : ℝ) : EReal) - ((s c0 : ℝ) : EReal))
      = ((∑ c : Fin 100, Real.exp (s c - s c0) : ℝ) : EReal) := by
    rw [coe_sum]
    rfl
  unfold kerRow refRow
  rw [kmax_eq s g hg c0 h0', rmax_eq s c0 h0', expsum_lanes s g hg, pick_lanes s g hg j, hR, hlog]
  rw [← EReal.coe_add, ← EReal.coe_sub, ← EReal.coe_sub, ← EReal.coe_sub, ← EReal.coe_neg]
  congr 1
  ring

end Cert.CE

end
-- ==== Proof.Totals.lean ====
/-
  Regrouping the 128 tiles of 8192 samples as all 1048576 samples, and its two consequences: the kernel's running
  cross-entropy sum is the reference's sum, and the kernel's count of a class lane is positive exactly when the class
  occurs among the labels.
-/
import proofs.«423522_j76991583748731_1_alg».proof.Proof.RowMath
import Mathlib.Algebra.BigOperators.Group.Finset.Basic
import Mathlib.Algebra.BigOperators.Group.Finset.Sigma
import Mathlib.Algebra.Order.BigOperators.Group.Finset
import Mathlib.Data.Fintype.BigOperators

noncomputable section

namespace Cert.CE

open Idealize.ShloMosaic Idealize.ShloMosaic.ValueIdx
open scoped BigOperators

/-- The pair (tile, row) and the sample number 8192 · tile + row determine each other. -/
private def tileEquiv : Fin 128 × Fin 8192 ≃ Fin 1048576 where
  toFun p := rowOf p.1 p.2
  invFun n := (⟨n.val / 8192, by have := n.isLt; omega⟩, ⟨n.val % 8192, by omega⟩)
  left_inv p := by
    obtain ⟨t, r⟩ := p
    have ht := t.isLt
    have hr := r.isLt
    refine Prod.ext (Fin.ext ?_) (Fin.ext ?_)
    · show (8192 * t.val + r.val) / 8192 = t.val
      omega
    · show (8192 * t.val + r.val) % 8192 = r.val
      omega
  right_inv n := by
    refine Fin.ext ?_
    show 8192 * (n.val / 8192) + n.val % 8192 = n.val
    omega

/-- Summing over tiles and rows is summing over samples. -/
theorem sum_tiles {M : Type} [AddCommMonoid M] (f : Fin 1048576 → M) :
    ∑ t : Fin 128, ∑ r : Fin 8192, f (rowOf t r) = ∑ n : Fin 1048576, f n := by
  rw [← Fintype.sum_prod_type' (fun t r => f (rowOf t r))]
  exact Fintype.sum_equiv tileEquiv _ _ (fun _ => rfl)

/-- A finite sum of real numbers, read in the extended reals, is the sum of the readings. -/
private theorem coe_sum128 (f : Fin 128 → ℝ) : ((∑ k, f k : ℝ) : EReal) = ∑ k, (f k : EReal) := by
  have h : ∀ s : Finset (Fin 128), ((∑ k ∈ s, f k : ℝ) : EReal) = ∑ k ∈ s, (f k : EReal) := by
    intro s
    induction s using Finset.induction_on with
    | empty => simp
    | insert i s hi ih => rw [Finset.sum_insert hi, Finset.sum_insert hi, EReal.coe_add, ih]
  exact h Finset.univ

/-- A word whose signed value is in [0, 100) is the word of that number, and conversely. -/
private theorem word_eq_iff (w : BitVec 32) (c : Nat) (hc : c < 100) :
    BitVec.ofNat 32 c = w ↔ w.toInt = (c : Int) := by
  have hw := w.isLt
  constructor
  · intro h
    subst h
    have h1 : (BitVec.ofNat 32 c).toNat = c := by
      rw [BitVec.toNat_ofNat]; omega
    rw [BitVec.toInt_eq_toNat_cond, h1]
    split <;> omega
  · intro h
    apply BitVec.eq_of_toNat_eq
    rw [BitVec.toNat_ofNat]
    rw [BitVec.toInt_eq_toNat_cond] at h
    split at h <;> omega

/-- An in-range label word is the word of its class number. -/
private theorem word_of_lab (y : SY.Idx → BitVec 32) (hy : InRange y) (n : Fin 1048576) :
    y (ix1 n) = BitVec.ofNat 32 (lab y n).val := by
  obtain ⟨h0, h1⟩ := hy n
  have hlt : (y (ix1 n)).toInt.toNat < 100 := by omega
  have hval : (lab y n).val = (y (ix1 n)).toInt.toNat := Nat.mod_eq_of_lt hlt
  rw [hval]
  refine ((word_eq_iff (y (ix1 n)) _ hlt).2 ?_).symm
  omega

/-- The matrix product of tile t with the padded anchors, on a class lane, is the score of the sample. -/
private theorem mm_eq_score (x : SX.Idx → EReal) (a : SA.Idx → EReal) (t : Fin 128) (r : Fin 8192)
    (l : Fin 128) (h : l.val < 100) :
    mm (xblk x t) (wpad a) r l = score x a (rowOf t r) ⟨l.val, h⟩ := by
  unfold mm score
  refine Finset.sum_congr rfl (fun k _ => ?_)
  have hw : wpad a (ix2 k l) = a (ix2 ⟨l.val, h⟩ k) := by
    unfold wpad
    exact dif_pos h
  rw [hw]
  rfl

/-- Under finite inputs and in-range labels the kernel's running sum after all tiles is the reference's sum. -/
theorem kerTotal_eq_refTotal (x : SX.Idx → EReal) (a : SA.Idx → EReal) (y : SY.Idx → BitVec 32)
    (hx : Finite x) (ha : Finite a) (hy : InRange y) : kerTotal x a y = refTotal x a y := by
  choose xr hxr using hx
  choose ar har using ha
  have hscore : ∀ (n : Fin 1048576) (c : Fin 100),
      score x a n c = ((∑ k : Fin 128, xr (ix2 n k) * ar (ix2 c k) : ℝ) : EReal) := by
    intro n c
    unfold score
    rw [coe_sum128]
    refine Finset.sum_congr rfl (fun k _ => ?_)
    rw [hxr, har, EReal.coe_mul]
  have hrow : ∀ (t : Fin 128) (r : Fin 8192),
      kerRow (mm (xblk x t) (wpad a) r) (yblk y t (ix2 r 0))
        = refRow (score x a (rowOf t r)) (lab y (rowOf t r)) := by
    intro t r
    have hlabel : yblk y t (ix2 r 0) = BitVec.ofNat 32 (lab y (rowOf t r)).val :=
      word_of_lab y hy (rowOf t r)
    have hfun : score x a (rowOf t r)
        = fun c => ((∑ k : Fin 128, xr (ix2 (rowOf t r) k) * ar (ix2 c k) : ℝ) : EReal) :=
      funext (fun c => hscore (rowOf t r) c)
    rw [hlabel, hfun]
    refine kerRow_eq_refRow (fun c => ∑ k : Fin 128, xr (ix2 (rowOf t r) k) * ar (ix2 c k)) _ ?_ _
    intro l h
    rw [mm_eq_score x a t r l h]
    exact hscore (rowOf t r) ⟨l.val, h⟩
  unfold kerTotal refTotal tileCE
  rw [← sum_tiles (fun n => refRow (score x a n) (lab y n))]
  exact Finset.sum_congr rfl (fun t _ => Finset.sum_congr rfl (fun r _ => hrow t r))

/-- The one-hot lane of a word is 0 or 1, so it is never negative. -/
private theorem oh_nonneg (w : BitVec 32) (l : Fin 128) : 0 ≤ oh w l := by
  unfold oh
  split
  · exact zero_le_one
  · exact le_refl _

/-- The one-hot lane of a word is positive exactly on the lane whose number is the word. -/
private theorem oh_pos_iff (w : BitVec 32) (l : Fin 128) : 0 < oh w l ↔ BitVec.ofNat 32 l.val = w := by
  unfold oh
  constructor
  · intro h
    by_contra hne
    rw [if_neg hne] at h
    exact lt_irrefl _ h
  · intro h
    rw [if_pos h]
    exact zero_lt_one

/-- The kernel's count of lane l after all tiles is the number of samples whose label word is l. -/
private theorem kerCnt_eq (y : SY.Idx → BitVec 32) (l : Fin 128) :
    kerCnt y l = ∑ n : Fin 1048576, oh (y (ix1 n)) l := by
  unfold kerCnt tileCnt
  rw [← sum_tiles (fun n => oh (y (ix1 n)) l)]
  rfl

/-- The kernel's float count of a class lane is positive exactly when the class occurs among the labels. -/
theorem cmp_kerCnt (y : SY.Idx → BitVec 32) (c : Fin 100) :
    Ideal.cmp .ogt (kerCnt y ⟨c.val, by omega⟩) 0 = presentBit y c := by
  have hc := c.isLt
  have hiff : 0 < kerCnt y ⟨c.val, by omega⟩ ↔ present y c := by
    rw [kerCnt_eq, Finset.sum_pos_iff_of_nonneg (fun n _ => oh_nonneg _ _)]
    unfold present
    constructor
    · rintro ⟨n, _, hn⟩
      exact ⟨n, (word_eq_iff _ c.val hc).1 ((oh_pos_iff _ _).1 hn)⟩
    · rintro ⟨n, hn⟩
      exact ⟨n, Finset.mem_univ _, (oh_pos_iff _ _).2 ((word_eq_iff _ c.val hc).2 hn)⟩
  unfold Ideal.cmp presentBit
  by_cases hp : present y c
  · have h0 : 0 < kerCnt y ⟨c.val, by omega⟩ := hiff.2 hp
    simp [hp, h0]
  · have h0 : ¬ 0 < kerCnt y ⟨c.val, by omega⟩ := fun h => hp (hiff.1 h)
    simp [hp, h0]

end Cert.CE

end
-- ==== Proof.KernelValue.lean ====
import proofs.«423522_j76991583748731_1_alg».proof.Proof.KernelFrame
import proofs.«423522_j76991583748731_1_alg».proof.Proof.Payload
import proofs.«423522_j76991583748731_1_alg».proof.Proof.Blocks
import proofs.«423522_j76991583748731_1_alg».proof.Proof.Totals
import Idealize.ShloMosaic.Lib.ValueIdx
import Idealize.ShloMosaic.Lib.ValueLayout

/-!
  The kernel's two result arrays at the extended reals, in terms of the argument arrays: the cross-entropy array holds the
  sum over the 128 tiles of each tile's sum, the class-count array the sum over the tiles of each tile's one-hot column
  sums.
-/

noncomputable section

open Idealize.ShloMosaic Idealize.ShloMosaic.TcCoe Idealize.ShloMosaic.ValueIdx Idealize.SL.Sem
open scoped BigOperators

namespace Cert.KernelIdeal.KValue

open Cert.KernelIdeal Cert.KernelIdeal.Gen Cert.CE

variable (m : (ℓ : Loc nD τ sig) → Buf (Elt Ideal) ℓ)

/-- The three argument arrays of core c. -/
abbrev argX (c : Dev nD) : SX.Idx → EReal := m ((c : Thread nD τ).loc main_arg0)
abbrev argA (c : Dev nD) : SA.Idx → EReal := m ((c : Thread nD τ).loc main_arg1)
abbrev argY (c : Dev nD) : SY.Idx → BitVec 32 := m ((c : Thread nD τ).loc main_arg2)

/-- Tile t's contribution to the cross-entropy sum, zero past the last tile. -/
def tileCE' (c : Dev nD) (t : ℕ) : EReal :=
  if h : t < 128 then tileCE (xblk (argX m c) ⟨t, h⟩) (wpad (argA m c)) (yblk (argY m c) ⟨t, h⟩) else 0

/-- Tile t's contribution to lane l of the class counts, zero past the last tile. -/
def tileCnt' (c : Dev nD) (l : Fin 128) (t : ℕ) : EReal :=
  if h : t < 128 then tileCnt (yblk (argY m c) ⟨t, h⟩) l else 0

theorem lt128 {n : ℕ} (h : n < cfg0.N) : n < 128 := lt_of_lt_of_eq h (show cfg0.N = 128 from N_0)

/-- The running cross-entropy sum after point n is the sum of the first n + 1 tiles' contributions. -/
theorem accCE_apply (c : Dev nD) : ∀ (n : ℕ) (h : n < cfg0.N),
    accCE m c n h (ix2 0 0) = ∑ t ∈ Finset.range (n + 1), tileCE' m c t
  | 0, h => by
    unfold accCE
    rw [Pay.pay5_apply, Pay.pay2_apply, zero_add, Blocks.iblk0_eq, Blocks.iblk1_eq, Blocks.iblk2_eq,
      Finset.sum_range_one]
    unfold tileCE'
    rw [dif_pos (by decide : (0 : ℕ) < 128)]
    rfl
  | n + 1, h => by
    unfold accCE
    rw [Pay.pay5_apply, accCE_apply c n (Nat.lt_of_succ_lt h), Blocks.iblk0_eq, Blocks.iblk1_eq, Blocks.iblk2_eq,
      Finset.sum_range_succ _ (n + 1)]
    congr 1
    unfold tileCE'
    rw [dif_pos (lt128 h)]
    rfl

/-- The running count of lane l after point n is the sum of the first n + 1 tiles' one-hot column sums. -/
theorem accCnt_apply (c : Dev nD) (l : Fin 128) : ∀ (n : ℕ) (h : n < cfg0.N),
    accCnt m c n h (ix2 0 l) = ∑ t ∈ Finset.range (n + 1), tileCnt' m c l t
  | 0, h => by
    unfold accCnt
    rw [Pay.pay1_apply, Pay.pay3_apply, zero_add, Blocks.iblk1_eq, Finset.sum_range_one]
    unfold tileCnt'
    rw [dif_pos (by decide : (0 : ℕ) < 128)]
    rfl
  | n + 1, h => by
    unfold accCnt
    rw [Pay.pay1_apply, accCnt_apply c l n (Nat.lt_of_succ_lt h), Blocks.iblk1_eq, Finset.sum_range_succ _ (n + 1)]
    congr 1
    unfold tileCnt'
    rw [dif_pos (lt128 h)]
    rfl

/-- After the last point the cross-entropy accumulator holds the sum over all tiles. -/
theorem ce_total (c : Dev nD) : accCE m c tlast.val tlast.isLt (ix2 0 0) = kerTotal (argX m c) (argA m c) (argY m c) := by
  rw [accCE_apply]
  show ∑ t ∈ Finset.range 128, tileCE' m c t = _
  unfold kerTotal
  rw [← Fin.sum_univ_eq_sum_range (fun t => tileCE' m c t) 128]
  refine Finset.sum_congr rfl fun t _ => ?_
  unfold tileCE'
  rw [dif_pos t.isLt]

/-- After the last point lane l of the class counts holds the sum over all tiles. -/
theorem cnt_total (c : Dev nD) (l : Fin 128) : accCnt m c tlast.val tlast.isLt (ix2 0 l) = kerCnt (argY m c) l := by
  rw [accCnt_apply]
  show ∑ t ∈ Finset.range 128, tileCnt' m c l t = _
  unfold kerCnt
  rw [← Fin.sum_univ_eq_sum_range (fun t => tileCnt' m c l t) 128]
  refine Finset.sum_congr rfl fun t _ => ?_
  unfold tileCnt'
  rw [dif_pos t.isLt]

end Cert.KernelIdeal.KValue

end
-- ==== Proof.RefValue.lean ====
/-
  What the reference computes, stage by stage at an index: the score matrix, the row maximum from −∞, the shifted
  exponentials and their sum, the log-softmax, the gather at the sample's label (under in-range labels the index needs no
  wrap and no clamp and the in-bounds mask is set), the negation, and the sum over all samples.
-/
import proofs.«423522_j76991583748731_1_alg».proof.Proof.RefRead
import proofs.«423522_j76991583748731_1_alg».proof.Proof.Spec
import Idealize.ShloMosaic.Lib.ValueIdx
import Idealize.ShloMosaic.Lib.Pipeline.Value
import Idealize.ShloMosaic.PureOps.Ideal.Laws
import Idealize.ShloMosaic.PureOps.Reduce
import Idealize.ShloMosaic.Lib.Affine

noncomputable section

namespace Cert.ReferenceIdeal.RefValue

open Idealize.ShloMosaic Idealize.ShloMosaic.ValueIdx Cert.ReferenceIdeal Cert.ReferenceIdeal.Gen Cert.ReferenceIdeal.ReadP Cert.CE
open scoped BigOperators

variable (x : SX.Idx → EReal) (a : SA.Idx → EReal) (y : SY.Idx → BitVec 32)

/-- The scores: element (n, c) of the matrix product is the score of sample n against class c. -/
theorem v0_at (n : Fin 1048576) (c : Fin 100) :
    val_main_v0 (F := Ideal) x a (ix2 n c) = score x a n c := by
  rw [val_main_v0_apply]
  unfold score
  refine Finset.sum_congr rfl fun k _ => ?_
  have el : lidx_main_v0 (ix2 n c) k = ix2 n k := funext fun d => Fin.ext (by
    match d with
    | ⟨0, _⟩ => rfl
    | ⟨1, _⟩ => rfl)
  have er : ridx_main_v0 (ix2 n c) k = ix2 c k := funext fun d => Fin.ext (by
    match d with
    | ⟨0, _⟩ => rfl
    | ⟨1, _⟩ => rfl)
  rw [el, er]

/-- The word 0xFF800000 is −∞. -/
private theorem ofBits_neg_inf : Ideal.ofBits .f32 0xFF800000#32 = ⊥ := by
  simp [Ideal.ofBits, Ideal.ieee]

/-- Row n of the scores with class coordinate k put back on the reduced axis. -/
private theorem lift_row (h : S1048576x100.Reduces [1] S1048576) (n : Fin 1048576) (k : Fin 100) :
    h.lift (ix1 n) k = ix2 n k := funext fun d => Fin.ext (by
  match d with
  | ⟨0, _⟩ => rfl
  | ⟨1, _⟩ => rfl)

/-- The max-reduce of row n from −∞ is the row's maximum over the 100 classes. -/
theorem rowmax_at (n : Fin 1048576) :
    val_main_call0_v0 (F := Ideal) x a (ix1 n) = rmax (score x a n) := by
  unfold val_main_call0_v0
  have h : S1048576x100.Reduces [1] S1048576 := by decide
  refine (Host.reduce_eq_fold_single _ _ _ reducesTo_S1048576x100_S1048576_d1 h h_S_ (ix1 n)).trans ?_
  have hf : (val_main_v0 (F := Ideal) x a ∘ h.lift (ix1 n)) = score x a n := by
    funext (k : Fin 100)
    exact (congrArg (val_main_v0 (F := Ideal) x a) (lift_row h n k)).trans (v0_at x a n k)
  rw [hf]
  show Finset.univ.fold max (Ideal.ofBits .f32 0xFF800000#32) (score x a n) = _
  rw [ofBits_neg_inf]
  rfl

/-- The maximum the row is shifted by: the row maximum again (the maximum with −∞ changes nothing). -/
theorem shift_at (n : Fin 1048576) :
    val_main_call0_v2 (F := Ideal) x a (ix1 n) = rmax (score x a n) := by
  rw [val_main_call0_v2_apply, rowmax_at, val_main_call0_v1_apply, val_main_call0_cst_0_apply]
  show max (Ideal.ofBits .f32 0xFF800000#32) _ = _
  rw [ofBits_neg_inf, max_bot_left]

/-- The shift broadcast over the classes. -/
theorem shiftb_at (n : Fin 1048576) (c : Fin 100) :
    val_main_call0_v4 (F := Ideal) x a (ix2 n c) = rmax (score x a n) := by
  rw [val_main_call0_v4_apply, val_main_call0_v3_apply]
  have e : idx_main_call0_v3 (idx_main_call0_v4 (ix2 n c)) = ix1 n := funext fun d => Fin.ext (by
    match d with
    | ⟨0, _⟩ => rfl)
  rw [e, shift_at]

/-- The shifted scores. -/
theorem shifted_at (n : Fin 1048576) (c : Fin 100) :
    val_main_call0_v5 (F := Ideal) x a (ix2 n c) = score x a n c - rmax (score x a n) := by
  rw [val_main_call0_v5_apply, v0_at, shiftb_at]
  rfl

/-- Their exponentials. -/
theorem exp_at (n : Fin 1048576) (c : Fin 100) :
    val_main_call0_v6 (F := Ideal) x a (ix2 n c) = Ideal.exp (score x a n c - rmax (score x a n)) := by
  rw [val_main_call0_v6_apply, shifted_at]
  rfl

/-- The sum of the exponentials over the classes (from zero). -/
theorem expsum_at (n : Fin 1048576) :
    val_main_call0_v7 (F := Ideal) x a (ix1 n)
      = ∑ k : Fin 100, Ideal.exp (score x a n k - rmax (score x a n)) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix1 n) k = ix2 n k := funext fun d => Fin.ext (by
    match d with
    | ⟨0, _⟩ => rfl
    | ⟨1, _⟩ => rfl)
  rw [e, exp_at]

/-- Its logarithm, broadcast over the classes. -/
theorem logsum_at (n : Fin 1048576) (c : Fin 100) :
    val_main_call0_v10 (F := Ideal) x a (ix2 n c)
      = Ideal.log (∑ k : Fin 100, Ideal.exp (score x a n k - rmax (score x a n))) := by
  rw [val_main_call0_v10_apply, val_main_call0_v9_apply, val_main_call0_v8_apply]
  have e : idx_main_call0_v8 (idx_main_call0_v10 (ix2 n c)) = ix1 n := funext fun d => Fin.ext (by
    match d with
    | ⟨0, _⟩ => rfl)
  rw [e, expsum_at]
  rfl

/-- The log-softmax of sample n at class c. -/
theorem logsoftmax_at (n : Fin 1048576) (c : Fin 100) :
    val_main_v1 (F := Ideal) x a (ix2 n c)
      = (score x a n c - rmax (score x a n))
        - Ideal.log (∑ k : Fin 100, Ideal.exp (score x a n k - rmax (score x a n))) := by
  rw [val_main_v1_apply, shifted_at, logsum_at]
  rfl

/-- The label word of sample n, as the one entry of row n of the index column. -/
theorem lbl_at (n : Fin 1048576) : val_main_v2 (F := Ideal) y (ix2 n 0) = y (ix1 n) := by
  rw [val_main_v2_apply]
  exact congrArg y (funext fun d => Fin.ext (by
    match d with
    | ⟨0, _⟩ => rfl))

/-- A label that is a class number is not negative, so the wrap-around of negative indices keeps it. -/
theorem wrapped_at (hy : InRange y) (n : Fin 1048576) :
    val_main_call1_v4 (F := Ideal) y (ix2 n 0) = y (ix1 n) := by
  rw [val_main_call1_v4_apply, val_main_call1_v1_apply, lbl_at, val_main_call1_v0_apply,
    val_main_call1_c_apply]
  have h0 : IntOp.cmpi .slt (y (ix1 n)) 0#32 = 0#1 := by
    refine eq_zero_of_ne_one fun h => ?_
    have h1 := IntOp.cmpi_slt.mp h
    have h2 := (hy n).1
    rw [show (0#32 : BitVec 32).toInt = 0 from by decide] at h1
    omega
  rw [h0, select_zero]

/-- The index column reshaped to rank three holds the same word. -/
theorem idx3_at (hy : InRange y) (n : Fin 1048576) :
    val_main_call1_v5 (F := Ideal) y (ix3 n 0 0) = y (ix1 n) := by
  rw [val_main_call1_v5_apply]
  have e : idx_main_call1_v5 (ix3 n 0 0) = ix2 n 0 := funext fun d => Fin.ext (by
    match d with
    | ⟨0, _⟩ =>
      show ((n.val * 1 + 0) * 1 + 0) / 1 = n.val
      omega
    | ⟨1, _⟩ => rfl)
  rw [e, wrapped_at y hy]

/-- The in-bounds test 0 ≤ index ≤ 99 holds of a label that is a class number. -/
theorem inb_at (hy : InRange y) (n : Fin 1048576) :
    val_main_call1_v11 (F := Ideal) y (ix3 n 0 0) = 1#1 := by
  rw [val_main_call1_v11_apply, val_main_call1_v7_apply, val_main_call1_v10_apply, idx3_at y hy,
    val_main_call1_v6_apply, val_main_call1_c_2_apply, val_main_call1_v9_apply,
    val_main_call1_v8_apply, val_main_call1_c_1_apply]
  have h1 : IntOp.cmpi .sge (y (ix1 n)) 0#32 = 1#1 :=
    IntOp.cmpi_sge.mpr (by
      rw [show (0#32 : BitVec 32).toInt = 0 from by decide]
      exact (hy n).1)
  have h2 : IntOp.cmpi .sle (y (ix1 n)) 99#32 = 1#1 :=
    IntOp.cmpi_sle.mpr (by
      rw [show (99#32 : BitVec 32).toInt = 99 from by decide]
      have := (hy n).2
      omega)
  rw [h1, h2]
  rfl

/-- The and-reduce of the test over its size-one last axis, from 1, is 1. -/
theorem mask_at (hy : InRange y) (n : Fin 1048576) :
    val_main_call1_v12 (F := Ideal) y (ix2 n 0) = 1#1 := by
  unfold val_main_call1_v12
  have h : S1048576x1x1.Reduces [2] S1048576x1 := by decide
  refine (Host.reduce_eq_fold_single _ _ _ reducesTo_S1048576x1x1_S1048576x1_d2 h h_S_ (ix2 n 0)).trans ?_
  have hf : (val_main_call1_v11 (F := Ideal) y ∘ h.lift (ix2 n 0)) = fun _ => 1#1 := by
    funext (k : Fin 1)
    have e : h.lift (ix2 n 0) k = ix3 n 0 0 := funext fun d => Fin.ext (by
      match d with
      | ⟨0, _⟩ => rfl
      | ⟨1, _⟩ => rfl
      | ⟨2, _⟩ =>
        show k.val = 0
        omega)
    exact (congrArg (val_main_call1_v11 (F := Ideal) y) e).trans (inb_at y hy n)
  rw [hf]
  show (Finset.univ : Finset (Fin 1)).fold IntOp.andi 1#1 (fun _ => 1#1) = 1#1
  rw [Finset.univ_unique, Finset.fold_singleton]
  rfl

/-- The gather's dimension numbers (batching on the sample axis, the class axis collapsed and start-indexed). -/
private abbrev gd := gather_S1048576x100_S1048576x1x1_S1048576x1_n_1_0_0_1_2_11

/-- On the sample axis the operand index is the result's own row: a batching axis has start 0 and no offset. -/
private theorem gather_coord0 {w : Nat} (idx : IVec S1048576x1x1 w) (n : Fin 1048576) :
    (gd.operandIdx (ix2 n 0) idx 0).val = n.val := by
  have hb : (0 : Fin 2) ∈ gd.operandBatchingDims := List.mem_singleton.mpr rfl
  have hk : (0 : Fin 2) ∉ gd.sKept := fun h => ((gd.mem_sKept 0).1 h).2 hb
  show gd.start (ix2 n 0) idx 0 + gd.batchCoord (ix2 n 0) 0 + gd.offCoord (ix2 n 0) 0 = n.val
  rw [gd.start_batching _ _ 0 hb, gd.offCoord_eq_zero _ 0 hk, Nat.zero_add, Nat.add_zero]
  rfl

/-- The start-indices position row n reads its class index from: (n, 0, 0). -/
private theorem gather_siIdx (n : Fin 1048576) (c : Fin gd.startIndexMap.length) :
    gd.siIdx (ix2 n 0) c = ix3 n 0 0 := funext fun b => Fin.ext (by
  match b with
  | ⟨0, _⟩ => rfl
  | ⟨1, _⟩ => rfl
  | ⟨2, _⟩ =>
    show c.val = 0
    have hc : c.val < 1 := c.isLt
    omega)

/-- On the class axis the operand index is the start index read signed and clamped into [0, 99]. -/
private theorem gather_coord1 {w : Nat} (idx : IVec S1048576x1x1 w) (n : Fin 1048576) :
    (gd.operandIdx (ix2 n 0) idx 1).val = min (idx (ix3 n 0 0)).toInt.toNat 99 := by
  have hb : (1 : Fin 2) ∉ gd.operandBatchingDims := by
    show (1 : Fin 2) ∉ [0]
    decide
  have hk : (1 : Fin 2) ∉ gd.sKept := fun h => ((gd.mem_sKept 1).1 h).1 (List.mem_singleton.mpr rfl)
  have hm : (1 : Fin 2) ∈ gd.startIndexMap := List.mem_singleton.mpr rfl
  show gd.start (ix2 n 0) idx 1 + gd.batchCoord (ix2 n 0) 1 + gd.offCoord (ix2 n 0) 1 = _
  rw [gd.batchCoord_eq_zero _ 1 hb, gd.offCoord_eq_zero _ 1 hk]
  show gd.start (ix2 n 0) idx 1 = _
  unfold GatherDims.start
  rw [dif_pos hm, gather_siIdx]
  rfl

/-- The gather reads the log-softmax of sample n at its label's class. -/
theorem gathered_at (hy : InRange y) (n : Fin 1048576) :
    val_main_call1_v13 (F := Ideal) x a y (ix2 n 0)
      = val_main_v1 (F := Ideal) x a (ix2 n (lab y n)) := by
  unfold val_main_call1_v13 Host.gather
  refine congrArg (val_main_v1 (F := Ideal) x a) (funext fun d => Fin.ext ?_)
  match d with
  | ⟨0, _⟩ => exact gather_coord0 _ n
  | ⟨1, _⟩ =>
    refine (gather_coord1 _ n).trans ?_
    rw [idx3_at y hy]
    have h1 := (hy n).1
    have h2 := (hy n).2
    show min (y (ix1 n)).toInt.toNat 99 = (y (ix1 n)).toInt.toNat % 100
    omega

/-- The select on the in-bounds mask keeps the gathered value. -/
theorem picked_at (hy : InRange y) (n : Fin 1048576) :
    val_main_v3 (F := Ideal) x a y (ix2 n 0) = val_main_v1 (F := Ideal) x a (ix2 n (lab y n)) := by
  rw [val_main_v3_apply, mask_at y hy, select_one, gathered_at x a y hy]

/-- Reshaped to one entry per sample. -/
theorem flat_at (hy : InRange y) (n : Fin 1048576) :
    val_main_v4 (F := Ideal) x a y (ix1 n) = val_main_v1 (F := Ideal) x a (ix2 n (lab y n)) := by
  rw [val_main_v4_apply]
  have e : idx_main_v4 (ix1 n) = ix2 n 0 := funext fun d => Fin.ext (by
    match d with
    | ⟨0, _⟩ =>
      show n.val / 1 = n.val
      omega
    | ⟨1, _⟩ => rfl)
  rw [e, picked_at x a y hy]

/-- Negated: the reference's value for sample n, minus the log-softmax of its scores at its label. -/
theorem row_at (hy : InRange y) (n : Fin 1048576) :
    val_main_v5 (F := Ideal) x a y (ix1 n) = refRow (score x a n) (lab y n) := by
  rw [val_main_v5_apply, flat_at x a y hy, logsoftmax_at]
  rfl

/-- The sum over all samples (from zero) is the sum of the reference's per-sample values. -/
theorem v6_eq (hy : InRange y) :
    val_main_v6 (F := Ideal) x a y = fun _ => refTotal x a y := by
  funext i
  rw [val_main_v6_apply, val_main_cst_apply]
  show Ideal.ofBits .f32 0x00000000#32 + _ = _
  rw [Ideal.ofBits_zero_f32, zero_add]
  unfold refTotal
  refine Fintype.sum_equiv ⟨fun j => j 0, ix1, fun j => (eq_ix1 j).symm, fun _ => rfl⟩ _ _ fun j => ?_
  obtain ⟨p, rfl⟩ : ∃ p : Fin 1048576, j = ix1 p := ⟨j 0, eq_ix1 j⟩
  exact row_at x a y hy p

end Cert.ReferenceIdeal.RefValue

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.RefCount.lean ====
/-
  The reference's class-presence bits.

  The reference scatters a one onto a vector of 100 zeros at every sample's label, adding, and compares the result with
  zero. Read at class c, the scatter leaves the number of samples whose label is c (as a 32-bit word; there are 2^20
  samples, so the number is below 2^31 and the word is non-negative), and the number is positive exactly when some sample
  has label c.
-/
import proofs.«423522_j76991583748731_1_alg».proof.Proof.RefRead
import proofs.«423522_j76991583748731_1_alg».proof.Proof.Spec
import proofs.«423522_j76991583748731_1_alg».proof.Proof.LibScatterRows

noncomputable section

namespace Cert.ReferenceIdeal.RefCount
open Idealize.ShloMosaic Idealize.ShloMosaic.ValueIdx Cert.ReferenceIdeal Cert.ReferenceIdeal.Gen Cert.ReferenceIdeal.ReadP Cert.CE
open Idealize.ShloMosaic.StableHlo.Predicate
variable [Facts]

section Fold
variable {I P : Type}

/-- A left fold whose every step adds, at each place i, one when the position hits i and nothing otherwise, ends at
    the start plus the number of positions of the list that hit i. -/
private theorem foldl_count (g : (I → BitVec 32) → P → (I → BitVec 32)) (p : P → I → Prop)
    [∀ n i, Decidable (p n i)]
    (hg : ∀ r n i, g r n i = r i + (if p n i then 1#32 else 0#32)) (L : List P) :
    ∀ (r : I → BitVec 32) (i : I),
      L.foldl g r i = r i + BitVec.ofNat 32 (L.countP fun n => decide (p n i)) := by
  induction L with
  | nil =>
    intro r i
    rw [List.foldl_nil, List.countP_nil]
    exact (BitVec.add_zero _).symm
  | cons n L ih =>
    intro r i
    rw [List.foldl_cons, ih (g r n) i, hg r n i, List.countP_cons, BitVec.ofNat_add, BitVec.add_assoc]
    congr 1
    by_cases h : p n i
    · rw [if_pos h, if_pos (decide_eq_true h)]
      exact BitVec.add_comm _ _
    · rw [if_neg h, if_neg (by simpa using h)]
      exact BitVec.add_comm _ _

end Fold

section Scatter
variable {s si u : Shape} {w : Nat}

/-- One step of the scatter's fold, read at a place: the old value, plus the update when the position's result
    index is that place. -/
private theorem step_apply (d : ScatterDims s si u) (idx : IVec si w) (upd : u.Idx → BitVec 32)
    (hupd : ∀ j, upd j = 1#32) (r : s.Idx → BitVec 32) (n : Fin u.numel) (i : s.Idx) :
    (match d.resultIdx? (u.rowMajor.symm n) idx with
      | some i₀ => fun i' => if i' = i₀ then IntOp.addi (r i₀) (upd (u.rowMajor.symm n)) else r i'
      | none => r) i
      = r i + (if d.resultIdx? (u.rowMajor.symm n) idx = some i then 1#32 else 0#32) := by
  generalize d.resultIdx? (u.rowMajor.symm n) idx = o
  cases o with
  | none =>
    rw [if_neg (by simp)]
    exact (BitVec.add_zero _).symm
  | some i₀ =>
    show (if i = i₀ then IntOp.addi (r i₀) (upd (u.rowMajor.symm n)) else r i) = _
    by_cases h : i = i₀
    · subst h
      rw [if_pos rfl, if_pos rfl, hupd]
      rfl
    · rw [if_neg h, if_neg (fun e => h (Option.some.inj e).symm)]
      exact (BitVec.add_zero _).symm

/-- An adding scatter of ones leaves, at each place, the operand's value plus the number of update positions whose
    result index is that place. -/
private theorem scatter_ones (d : ScatterDims s si u) (x : s.Idx → BitVec 32) (idx : IVec si w)
    (upd : u.Idx → BitVec 32) (hupd : ∀ j, upd j = 1#32) (i : s.Idx) :
    Host.scatter d IntOp.addi x idx upd i
      = x i + BitVec.ofNat 32 ((List.finRange u.numel).countP fun n =>
          decide (d.resultIdx? (u.rowMajor.symm n) idx = some i)) := by
  unfold Host.scatter
  exact foldl_count _ (fun n i => d.resultIdx? (u.rowMajor.symm n) idx = some i)
    (fun r n i => step_apply d idx upd hupd r n i) (List.finRange u.numel) x i

end Scatter

/-- A count of at most 2^20 is, as a 32-bit word, greater than zero (signed) exactly when it is positive. -/
private theorem sgt_ofNat (K : Nat) (hK : K ≤ 1048576) :
    IntOp.cmpi .sgt (BitVec.ofNat 32 K) 0#32 = if 0 < K then 1#1 else 0#1 := by
  have hn : (BitVec.ofNat 32 K).toNat = K := by
    rw [BitVec.toNat_ofNat]
    exact Nat.mod_eq_of_lt (by omega)
  have hi : (BitVec.ofNat 32 K).toInt = (K : Int) := by
    rw [BitVec.toInt_eq_toNat_of_lt (by rw [hn]; omega), hn]
  show BitVec.ofBool ((0#32).slt (BitVec.ofNat 32 K)) = _
  rw [BitVec.slt_eq_decide, BitVec.toInt_zero, hi]
  by_cases h : 0 < K
  · rw [if_pos h, decide_eq_true (by exact_mod_cast h)]
    rfl
  · rw [if_neg h, decide_eq_false (by omega)]
    rfl

/-- The number of samples is 2^20. -/
private theorem numel_samples : S1048576.numel = 1048576 := Shape.numel_rank1 _

/-- The scattered counts: at class i, the number of update positions whose result index is i. -/
private theorem v11_eq (y : SY.Idx → BitVec 32) (i : S100.Idx) :
    val_main_v11 (F := Ideal) y i
      = BitVec.ofNat 32 ((List.finRange S1048576.numel).countP fun n =>
          decide (scatter_S100_S1048576x1_S1048576_n_0_0_1.resultIdx? (S1048576.rowMajor.symm n)
            (val_main_v10 (F := Ideal) y) = some i)) := by
  unfold val_main_v11
  rw [scatter_ones _ _ _ _ (fun j => by rw [val_main_v8_apply, val_main_c_apply]) i, val_main_v9_apply,
    val_main_c_1_apply]
  exact BitVec.zero_add _

/-- Some update position has result index c exactly when some sample has label c. -/
private theorem hit_iff (y : SY.Idx → BitVec 32) (c : Fin 100) :
    (∃ n : Fin S1048576.numel, scatter_S100_S1048576x1_S1048576_n_0_0_1.resultIdx? (S1048576.rowMajor.symm n)
        (val_main_v10 (F := Ideal) y) = some (ix1 c)) ↔ present y c := by
  have e : ∀ m : Fin 1048576, val_main_v10 (F := Ideal) y (ixP m) = y (ix1 m) := fun m => by
    rw [val_main_v10_apply]
    congr 1
    funext a
    match a with
    | ⟨0, _⟩ => rfl
  constructor
  · rintro ⟨n, hn⟩
    have h := (Cert.ScatterRows.vec_resultIdx scatter_S100_S1048576x1_S1048576_n_0_0_1 rfl rfl rfl
      (S1048576.rowMajor.symm n) (val_main_v10 (F := Ideal) y) c).mp hn
    exact ⟨(S1048576.rowMajor.symm n) 0, (congrArg BitVec.toInt (e ((S1048576.rowMajor.symm n) 0))).symm.trans h⟩
  · rintro ⟨m, hm⟩
    refine ⟨S1048576.rowMajor (ix1 m), ?_⟩
    rw [Equiv.symm_apply_apply]
    refine (Cert.ScatterRows.vec_resultIdx scatter_S100_S1048576x1_S1048576_n_0_0_1 rfl rfl rfl
      (ix1 m) (val_main_v10 (F := Ideal) y) c).mpr ?_
    show (val_main_v10 (F := Ideal) y (ixP m)).toInt = (c.val : Int)
    rw [e]
    exact hm

/-- The presence bit at class c. -/
private theorem v13_at (y : SY.Idx → BitVec 32) (c : Fin 100) :
    val_main_v13 (F := Ideal) y (ix1 c) = presentBit y c := by
  rw [val_main_v13_apply, val_main_v12_apply, val_main_c_2_apply, v11_eq,
    sgt_ofNat _ (le_trans List.countP_le_length (by rw [List.length_finRange, numel_samples]))]
  have hpos : (0 < (List.finRange S1048576.numel).countP fun n =>
      decide (scatter_S100_S1048576x1_S1048576_n_0_0_1.resultIdx? (S1048576.rowMajor.symm n)
        (val_main_v10 (F := Ideal) y) = some (ix1 c))) ↔ present y c := by
    rw [List.countP_pos_iff, ← hit_iff y c]
    constructor
    · rintro ⟨n, _, hn⟩
      exact ⟨n, of_decide_eq_true hn⟩
    · rintro ⟨n, hn⟩
      exact ⟨n, List.mem_finRange n, decide_eq_true hn⟩
  unfold presentBit
  by_cases h : present y c
  · rw [if_pos h, if_pos (hpos.mpr h)]
  · rw [if_neg h, if_neg (fun k => h (hpos.mp k))]

/-- The reference's presence bits are the specification's: bit c says whether class c occurs among the labels. -/
theorem v13_eq (y : SY.Idx → BitVec 32) :
    val_main_v13 (F := Ideal) y = fun i => presentBit y (i 0) := by
  funext i
  exact (congrArg (val_main_v13 (F := Ideal) y) (eq_ix1 i)).trans (v13_at y (i 0))

end Cert.ReferenceIdeal.RefCount

end
-- ==== Proof.Bridge.lean ====
import proofs.«423522_j76991583748731_1_alg».proof.Proof.KernelValue
import proofs.«423522_j76991583748731_1_alg».proof.Proof.RefValue
import proofs.«423522_j76991583748731_1_alg».proof.Proof.RefCount
import Idealize.ShloMosaic.Lib.ValueLayout
import Idealize.ShloMosaic.Lib.Pipeline.Value
import Idealize.ShloMosaic.PureOps.Ideal.Laws

/-!
  The two programs' results are one value. Both end with the same host operations — divide the sum by the number of samples,
  count the classes whose count is positive, multiply —, so it is enough that the sums agree (the kernel's 128-lane rows with
  −∞ on the padding lanes against the reference's 100-class rows) and that a class's float count is positive exactly when its
  integer count is.
-/

noncomputable section

open Idealize.ShloMosaic Idealize.ShloMosaic.TcCoe Idealize.ShloMosaic.ValueIdx Idealize.SL.Sem

namespace Cert.Bridge

open Cert.CE Cert.KernelIdeal.KValue

variable (m : (ℓ : Loc Cert.KernelIdeal.nD Cert.KernelIdeal.τ Cert.KernelIdeal.sig) → Buf (Elt Ideal) ℓ)

/-- The kernel's sum, reshaped to a scalar, is the reference's sum. -/
theorem sum_eq (c : Dev Cert.KernelIdeal.nD) (hx : Finite (argX m c)) (ha : Finite (argA m c)) (hy : InRange (argY m c)) :
    shapeCast Cert.KernelIdeal.S_ (accCE m c tlast.val tlast.isLt) Cert.KernelIdeal.Facts₀.shapeCasts_S1x1_S_
      = Cert.ReferenceIdeal.ReadP.val_main_v6 (F := Ideal) (argX m c) (argA m c) (argY m c) := by
  rw [Cert.ReferenceIdeal.RefValue.v6_eq _ _ _ hy]
  funext i
  have e : shapeCast Cert.KernelIdeal.S_ (accCE m c tlast.val tlast.isLt) Cert.KernelIdeal.Facts₀.shapeCasts_S1x1_S_ i
      = accCE m c tlast.val tlast.isLt (ix2 0 0) :=
    shapeCast_apply _ _ i (ix2 0 0) (by
      have e1 : Cert.KernelIdeal.S1x1.numel = 1 := by decide
      have e2 : Cert.KernelIdeal.S_.numel = 1 := by decide
      have h1 := lt_of_lt_of_eq (Cert.KernelIdeal.S1x1.rowMajor (ix2 0 0)).isLt e1
      have h2 := lt_of_lt_of_eq (Cert.KernelIdeal.S_.rowMajor i).isLt e2
      show (Cert.KernelIdeal.S1x1.rowMajor (ix2 0 0)).val = (Cert.KernelIdeal.S_.rowMajor i).val
      omega)
  rw [e, ce_total, kerTotal_eq_refTotal _ _ _ hx ha hy]

/-- A class's float count in the kernel is positive exactly when its integer count in the reference is. -/
theorem bits_eq (c : Dev Cert.KernelIdeal.nD) :
    cmpf .ogt (shapeCast Cert.KernelIdeal.S100
        (extractStridedSlice Cert.KernelIdeal.S1x100 ![0, 0] (accCnt m c tlast.val tlast.isLt) Cert.KernelIdeal.Facts₀.slices_S1x128_S1x100_0_0)
        Cert.KernelIdeal.Facts₀.shapeCasts_S1x100_S100)
      (broadcastInDim Cert.KernelIdeal.S100 ![] Cert.KernelIdeal.Facts₀.bcast_S_S100 (constant (F := Ideal) Cert.KernelIdeal.S_ .f32 0x00000000#32))
      = Cert.ReferenceIdeal.ReadP.val_main_v13 (F := Ideal) (argY m c) := by
  rw [Cert.ReferenceIdeal.RefCount.v13_eq]
  funext i
  obtain ⟨p, rfl⟩ : ∃ p : Fin 100, i = ix1 p := ⟨i 0, eq_ix1 i⟩
  rw [cmpf_apply, shapeCast_1a_a_apply,
    slice2_axis1_apply 0 _ _ (0 : Fin 1) p ⟨p.val, by omega⟩ (by show p.val = 0 + p.val; omega), cnt_total]
  rw [broadcastInDim_apply _ _ _ (ix1 p) ix0 (fun a => a.elim0), constant_apply, Ideal.ofBits_zero_f32]
  exact cmp_kerCnt (argY m c) p

/-- THE BRIDGE: under finite inputs and in-range labels the kernel's result is the reference's. -/
theorem result_eq (c : Dev Cert.KernelIdeal.nD) (hx : Finite (argX m c)) (ha : Finite (argA m c)) (hy : InRange (argY m c)) :
    ktail (F := Ideal) (accCE m c tlast.val tlast.isLt) (accCnt m c tlast.val tlast.isLt)
      = Cert.ReferenceIdeal.ReadP.val_main_v17 (F := Ideal) (argX m c) (argA m c) (argY m c) := by
  unfold ktail
  rw [sum_eq m c hx ha hy, bits_eq m c]
  rfl

end Cert.Bridge

end
-- ==== Proof.RefRun.lean ====
/-
  The reference program's run, cut into three stretches.

  The reference is a straight line of 59 tensor operations. Read as a fold over the buffers' contents, the line is the
  composition of three shorter lines: the scores and their log-softmax (16 operations), the pick of the label's entry
  (23 operations), and the mean scaled by the number of classes present (20 operations). Each stretch is read from an
  ARBITRARY starting valuation, as a function of the few buffers it reads; the three readings compose to the staged
  value of the result, and no stretch writes an argument.
-/
import proofs.«423522_j76991583748731_1_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 59 operations, in order (a called function's operations stand in its call's place). -/
abbrev ops : List (HloOp τ sig (Elt F)) :=
  [ binary main_arg0 main_arg1 main_v0 ((fun l r => Host.dotGeneral dot_S1048576x128_S100x128_S1048576x100_1_1_0_0_n_n none l r) : (⟨S1048576x128, .f32⟩ : BufTy).Contents (Elt F) → (⟨S100x128, .f32⟩ : BufTy).Contents (Elt F) → (⟨S1048576x100, .f32⟩ : BufTy).Contents (Elt F)),
    TRef.nullary (TRef.of (T := ⟨S_, .f32⟩) main_call0_cst) (constant S_ .f32 0xFF800000#32),
    TRef.binary (TRef.of (T := ⟨S1048576x100, .f32⟩) main_v0) (TRef.of (T := ⟨S_, .f32⟩) main_call0_cst) (TRef.of (T := ⟨S1048576, .f32⟩) main_call0_v0) (fun x v => Host.reduce FloatOps.maximumf x v reducesTo_S1048576x100_S1048576_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_call0_v0) (TRef.of (T := ⟨S1048576, .f32⟩) main_call0_v2) maximumf,
    TRef.unary (TRef.of (T := ⟨S1048576, .f32⟩) main_call0_v2) (TRef.of (T := ⟨S1048576x1, .f32⟩) main_call0_v3) (broadcastInDim S1048576x1 ![0] bcast_S1048576_S1048576x1_0),
    TRef.unary (TRef.of (T := ⟨S1048576x1, .f32⟩) main_call0_v3) (TRef.of (T := ⟨S1048576x100, .f32⟩) main_call0_v4) (broadcastInDim S1048576x100 ![0, 1] bcast_S1048576x1_S1048576x100_0_1),
    TRef.binary (TRef.of (T := ⟨S1048576x100, .f32⟩) main_v0) (TRef.of (T := ⟨S1048576x100, .f32⟩) main_call0_v4) (TRef.of (T := ⟨S1048576x100, .f32⟩) main_call0_v5) subf,
    TRef.unary (TRef.of (T := ⟨S1048576x100, .f32⟩) main_call0_v5) (TRef.of (T := ⟨S1048576x100, .f32⟩) main_call0_v6) Host.exp,
    TRef.nullary (TRef.of (T := ⟨S_, .f32⟩) main_call0_cst_1) (constant S_ .f32 0x00000000#32),
    TRef.binary (TRef.of (T := ⟨S1048576x100, .f32⟩) main_call0_v6) (TRef.of (T := ⟨S_, .f32⟩) main_call0_cst_1) (TRef.of (T := ⟨S1048576, .f32⟩) main_call0_v7) (fun x v => Host.reduceAdd x v reducesTo_S1048576x100_S1048576_d1 h_S_),
    TRef.unary (TRef.of (T := ⟨S1048576, .f32⟩) main_call0_v7) (TRef.of (T := ⟨S1048576x1, .f32⟩) main_call0_v8) (broadcastInDim S1048576x1 ![0] bcast_S1048576_S1048576x1_0),
    TRef.unary (TRef.of (T := ⟨S1048576x1, .f32⟩) main_call0_v8) (TRef.of (T := ⟨S1048576x1, .f32⟩) main_call0_v9) Host.log,
    TRef.unary (TRef.of (T := ⟨S1048576x1, .f32⟩) main_call0_v9) (TRef.of (T := ⟨S1048576x100, .f32⟩) main_call0_v10) (broadcastInDim S1048576x100 ![0, 1] bcast_S1048576x1_S1048576x100_0_1),
    TRef.binary (TRef.of (T := ⟨S1048576x100, .f32⟩) main_call0_v5) (TRef.of (T := ⟨S1048576x100, .f32⟩) main_call0_v10) (TRef.of (T := ⟨S1048576x100, .f32⟩) main_v1) subf,
    unary main_arg2 main_v2 (broadcastInDim S1048576x1 ![0] bcast_S1048576_S1048576x1_0 : (⟨S1048576, .i32⟩ : BufTy).Contents (Elt F) → (⟨S1048576x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1048576x1, .i32⟩) main_call1_v0) (broadcastInDim S1048576x1 ![] bcast_S_S1048576x1),
    TRef.binary (TRef.of (T := ⟨S1048576x1, .i32⟩) main_v2) (TRef.of (T := ⟨S1048576x1, .i32⟩) main_call1_v0) (TRef.of (T := ⟨S1048576x1, .i1⟩) main_call1_v1) (cmpi .slt),
    TRef.nullary (TRef.of (T := ⟨S_, .i32⟩) main_call1_c_0) (constantI S_ 32 100#32),
    TRef.unary (TRef.of (T := ⟨S_, .i32⟩) main_call1_c_0) (TRef.of (T := ⟨S1048576x1, .i32⟩) main_call1_v2) (broadcastInDim S1048576x1 ![] bcast_S_S1048576x1),
    TRef.binary (TRef.of (T := ⟨S1048576x1, .i32⟩) main_v2) (TRef.of (T := ⟨S1048576x1, .i32⟩) main_call1_v2) (TRef.of (T := ⟨S1048576x1, .i32⟩) main_call1_v3) addi,
    TRef.ternary (TRef.of (T := ⟨S1048576x1, .i1⟩) main_call1_v1) (TRef.of (T := ⟨S1048576x1, .i32⟩) main_call1_v3) (TRef.of (T := ⟨S1048576x1, .i32⟩) main_v2) (TRef.of (T := ⟨S1048576x1, .i32⟩) main_call1_v4) select,
    TRef.reshape (TRef.of (T := ⟨S1048576x1, .i32⟩) main_call1_v4) (TRef.of (T := ⟨S1048576x1x1, .i32⟩) main_call1_v5) rfl shapeCasts_S1048576x1_S1048576x1x1,
    TRef.nullary (TRef.of (T := ⟨S1, .i32⟩) main_call1_c_1) (constantI S1 32 99#32),
    TRef.nullary (TRef.of (T := ⟨S_, .i32⟩) main_call1_c_2) (constantI S_ 32 0#32),
    TRef.unary (TRef.of (T := ⟨S_, .i32⟩) main_call1_c_2) (TRef.of (T := ⟨S1048576x1x1, .i32⟩) main_call1_v6) (broadcastInDim S1048576x1x1 ![] bcast_S_S1048576x1x1),
    TRef.binary (TRef.of (T := ⟨S1048576x1x1, .i32⟩) main_call1_v5) (TRef.of (T := ⟨S1048576x1x1, .i32⟩) main_call1_v6) (TRef.of (T := ⟨S1048576x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1048576x1x1, .i32⟩) main_call1_v9) (broadcastInDim S1048576x1x1 ![0, 1, 2] bcast_S1x1x1_S1048576x1x1_0_1_2),
    TRef.binary (TRef.of (T := ⟨S1048576x1x1, .i32⟩) main_call1_v5) (TRef.of (T := ⟨S1048576x1x1, .i32⟩) main_call1_v9) (TRef.of (T := ⟨S1048576x1x1, .i1⟩) main_call1_v10) (cmpi .sle),
    TRef.binary (TRef.of (T := ⟨S1048576x1x1, .i1⟩) main_call1_v7) (TRef.of (T := ⟨S1048576x1x1, .i1⟩) main_call1_v10) (TRef.of (T := ⟨S1048576x1x1, .i1⟩) main_call1_v11) andi,
    TRef.nullary (TRef.of (T := ⟨S_, .i1⟩) main_call1_c_3) (constantI S_ 1 1#1),
    TRef.binary (TRef.of (T := ⟨S1048576x1x1, .i1⟩) main_call1_v11) (TRef.of (T := ⟨S_, .i1⟩) main_call1_c_3) (TRef.of (T := ⟨S1048576x1, .i1⟩) main_call1_v12) (fun x v => Host.reduce IntOp.andi x v reducesTo_S1048576x1x1_S1048576x1_d2 h_S_),
    TRef.binary (TRef.of (T := ⟨S1048576x100, .f32⟩) main_v1) (TRef.of (T := ⟨S1048576x1x1, .i32⟩) main_call1_v5) (TRef.of (T := ⟨S1048576x1, .f32⟩) main_call1_v13) (fun x i => Host.gather gather_S1048576x100_S1048576x1x1_S1048576x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1048576x1, .f32⟩) main_call1_v14) (broadcastInDim S1048576x1 ![] bcast_S_S1048576x1),
    TRef.ternary (TRef.of (T := ⟨S1048576x1, .i1⟩) main_call1_v12) (TRef.of (T := ⟨S1048576x1, .f32⟩) main_call1_v13) (TRef.of (T := ⟨S1048576x1, .f32⟩) main_call1_v14) (TRef.of (T := ⟨S1048576x1, .f32⟩) main_v3) select,
    reshape main_v3 main_v4 rfl shapeCasts_S1048576x1_S1048576,
    unary main_v4 main_v5 (Host.negf : (⟨S1048576, .f32⟩ : BufTy).Contents (Elt F) → (⟨S1048576, .f32⟩ : BufTy).Contents (Elt F)),
    nullary main_cst (constant S_ .f32 0x00000000#32),
    binary main_v5 main_cst main_v6 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)),
    nullary main_cst_0 (constant S_ .f32 0x49800000#32),
    binary main_v6 main_cst_0 main_v7 (Host.divf : (⟨S_, .f32⟩ : BufTy).Contents (Elt F) → (⟨S_, .f32⟩ : BufTy).Contents (Elt F) → (⟨S_, .f32⟩ : BufTy).Contents (Elt F)),
    nullary main_c (constantI S_ 32 1#32),
    unary main_c main_v8 (broadcastInDim S1048576 ![] bcast_S_S1048576 : (⟨S_, .i32⟩ : BufTy).Contents (Elt F) → (⟨S1048576, .i32⟩ : BufTy).Contents (Elt F)),
    nullary main_c_1 (constantI S_ 32 0#32),
    unary main_c_1 main_v9 (broadcastInDim S100 ![] bcast_S_S100 : (⟨S_, .i32⟩ : BufTy).Contents (Elt F) → (⟨S100, .i32⟩ : BufTy).Contents (Elt F)),
    unary main_arg2 main_v10 (broadcastInDim S1048576x1 ![0] bcast_S1048576_S1048576x1_0 : (⟨S1048576, .i32⟩ : BufTy).Contents (Elt F) → (⟨S1048576x1, .i32⟩ : BufTy).Contents (Elt F)),
    ternary main_v9 main_v10 main_v8 main_v11 ((fun x i u => Host.scatter scatter_S100_S1048576x1_S1048576_n_0_0_1 IntOp.addi x i u) : (⟨S100, .i32⟩ : BufTy).Contents (Elt F) → (⟨S1048576x1, .i32⟩ : BufTy).Contents (Elt F) → (⟨S1048576, .i32⟩ : BufTy).Contents (Elt F) → (⟨S100, .i32⟩ : BufTy).Contents (Elt F)),
    nullary main_c_2 (constantI S_ 32 0#32),
    unary main_c_2 main_v12 (broadcastInDim S100 ![] bcast_S_S100 : (⟨S_, .i32⟩ : BufTy).Contents (Elt F) → (⟨S100, .i32⟩ : BufTy).Contents (Elt F)),
    binary main_v11 main_v12 main_v13 (cmpi .sgt : (⟨S100, .i32⟩ : BufTy).Contents (Elt F) → (⟨S100, .i32⟩ : BufTy).Contents (Elt F) → (⟨S100, .i1⟩ : BufTy).Contents (Elt F)),
    unary main_v13 main_v14 ((extui 32 · natLt_1_32) : (⟨S100, .i1⟩ : BufTy).Contents (Elt F) → (⟨S100, .i32⟩ : BufTy).Contents (Elt F)),
    nullary main_c_3 (constantI S_ 32 0#32),
    binary main_v14 main_c_3 main_v15 ((fun x v => Host.reduce IntOp.addi x v reducesTo_S100_S_d0 h_S_) : (⟨S100, .i32⟩ : BufTy).Contents (Elt F) → (⟨S_, .i32⟩ : BufTy).Contents (Elt F) → (⟨S_, .i32⟩ : BufTy).Contents (Elt F)),
    unary main_v15 main_v16 (sitofp .f32 : (⟨S_, .i32⟩ : BufTy).Contents (Elt F) → (⟨S_, .f32⟩ : BufTy).Contents (Elt F)),
    binary main_v7 main_v16 main_v17 (mulf : (⟨S_, .f32⟩ : BufTy).Contents (Elt F) → (⟨S_, .f32⟩ : BufTy).Contents (Elt F) → (⟨S_, .f32⟩ : BufTy).Contents (Elt F)) ]

/-- The first stretch: the scores and their log-softmax. -/
abbrev opsA : List (HloOp τ sig (Elt F)) :=
  [ binary main_arg0 main_arg1 main_v0 ((fun l r => Host.dotGeneral dot_S1048576x128_S100x128_S1048576x100_1_1_0_0_n_n none l r) : (⟨S1048576x128, .f32⟩ : BufTy).Contents (Elt F) → (⟨S100x128, .f32⟩ : BufTy).Contents (Elt F) → (⟨S1048576x100, .f32⟩ : BufTy).Contents (Elt F)),
    TRef.nullary (TRef.of (T := ⟨S_, .f32⟩) main_call0_cst) (constant S_ .f32 0xFF800000#32),
    TRef.binary (TRef.of (T := ⟨S1048576x100, .f32⟩) main_v0) (TRef.of (T := ⟨S_, .f32⟩) main_call0_cst) (TRef.of (T := ⟨S1048576, .f32⟩) main_call0_v0) (fun x v => Host.reduce FloatOps.maximumf x v reducesTo_S1048576x100_S1048576_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_call0_v0) (TRef.of (T := ⟨S1048576, .f32⟩) main_call0_v2) maximumf,
    TRef.unary (TRef.of (T := ⟨S1048576, .f32⟩) main_call0_v2) (TRef.of (T := ⟨S1048576x1, .f32⟩) main_call0_v3) (broadcastInDim S1048576x1 ![0] bcast_S1048576_S1048576x1_0),
    TRef.unary (TRef.of (T := ⟨S1048576x1, .f32⟩) main_call0_v3) (TRef.of (T := ⟨S1048576x100, .f32⟩) main_call0_v4) (broadcastInDim S1048576x100 ![0, 1] bcast_S1048576x1_S1048576x100_0_1),
    TRef.binary (TRef.of (T := ⟨S1048576x100, .f32⟩) main_v0) (TRef.of (T := ⟨S1048576x100, .f32⟩) main_call0_v4) (TRef.of (T := ⟨S1048576x100, .f32⟩) main_call0_v5) subf,
    TRef.unary (TRef.of (T := ⟨S1048576x100, .f32⟩) main_call0_v5) (TRef.of (T := ⟨S1048576x100, .f32⟩) main_call0_v6) Host.exp,
    TRef.nullary (TRef.of (T := ⟨S_, .f32⟩) main_call0_cst_1) (constant S_ .f32 0x00000000#32),
    TRef.binary (TRef.of (T := ⟨S1048576x100, .f32⟩) main_call0_v6) (TRef.of (T := ⟨S_, .f32⟩) main_call0_cst_1) (TRef.of (T := ⟨S1048576, .f32⟩) main_call0_v7) (fun x v => Host.reduceAdd x v reducesTo_S1048576x100_S1048576_d1 h_S_),
    TRef.unary (TRef.of (T := ⟨S1048576, .f32⟩) main_call0_v7) (TRef.of (T := ⟨S1048576x1, .f32⟩) main_call0_v8) (broadcastInDim S1048576x1 ![0] bcast_S1048576_S1048576x1_0),
    TRef.unary (TRef.of (T := ⟨S1048576x1, .f32⟩) main_call0_v8) (TRef.of (T := ⟨S1048576x1, .f32⟩) main_call0_v9) Host.log,
    TRef.unary (TRef.of (T := ⟨S1048576x1, .f32⟩) main_call0_v9) (TRef.of (T := ⟨S1048576x100, .f32⟩) main_call0_v10) (broadcastInDim S1048576x100 ![0, 1] bcast_S1048576x1_S1048576x100_0_1),
    TRef.binary (TRef.of (T := ⟨S1048576x100, .f32⟩) main_call0_v5) (TRef.of (T := ⟨S1048576x100, .f32⟩) main_call0_v10) (TRef.of (T := ⟨S1048576x100, .f32⟩) main_v1) subf ]

/-- The second stretch: the entry of each row at its label. -/
abbrev opsB : List (HloOp τ sig (Elt F)) :=
  [ unary main_arg2 main_v2 (broadcastInDim S1048576x1 ![0] bcast_S1048576_S1048576x1_0 : (⟨S1048576, .i32⟩ : BufTy).Contents (Elt F) → (⟨S1048576x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1048576x1, .i32⟩) main_call1_v0) (broadcastInDim S1048576x1 ![] bcast_S_S1048576x1),
    TRef.binary (TRef.of (T := ⟨S1048576x1, .i32⟩) main_v2) (TRef.of (T := ⟨S1048576x1, .i32⟩) main_call1_v0) (TRef.of (T := ⟨S1048576x1, .i1⟩) main_call1_v1) (cmpi .slt),
    TRef.nullary (TRef.of (T := ⟨S_, .i32⟩) main_call1_c_0) (constantI S_ 32 100#32),
    TRef.unary (TRef.of (T := ⟨S_, .i32⟩) main_call1_c_0) (TRef.of (T := ⟨S1048576x1, .i32⟩) main_call1_v2) (broadcastInDim S1048576x1 ![] bcast_S_S1048576x1),
    TRef.binary (TRef.of (T := ⟨S1048576x1, .i32⟩) main_v2) (TRef.of (T := ⟨S1048576x1, .i32⟩) main_call1_v2) (TRef.of (T := ⟨S1048576x1, .i32⟩) main_call1_v3) addi,
    TRef.ternary (TRef.of (T := ⟨S1048576x1, .i1⟩) main_call1_v1) (TRef.of (T := ⟨S1048576x1, .i32⟩) main_call1_v3) (TRef.of (T := ⟨S1048576x1, .i32⟩) main_v2) (TRef.of (T := ⟨S1048576x1, .i32⟩) main_call1_v4) select,
    TRef.reshape (TRef.of (T := ⟨S1048576x1, .i32⟩) main_call1_v4) (TRef.of (T := ⟨S1048576x1x1, .i32⟩) main_call1_v5) rfl shapeCasts_S1048576x1_S1048576x1x1,
    TRef.nullary (TRef.of (T := ⟨S1, .i32⟩) main_call1_c_1) (constantI S1 32 99#32),
    TRef.nullary (TRef.of (T := ⟨S_, .i32⟩) main_call1_c_2) (constantI S_ 32 0#32),
    TRef.unary (TRef.of (T := ⟨S_, .i32⟩) main_call1_c_2) (TRef.of (T := ⟨S1048576x1x1, .i32⟩) main_call1_v6) (broadcastInDim S1048576x1x1 ![] bcast_S_S1048576x1x1),
    TRef.binary (TRef.of (T := ⟨S1048576x1x1, .i32⟩) main_call1_v5) (TRef.of (T := ⟨S1048576x1x1, .i32⟩) main_call1_v6) (TRef.of (T := ⟨S1048576x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1048576x1x1, .i32⟩) main_call1_v9) (broadcastInDim S1048576x1x1 ![0, 1, 2] bcast_S1x1x1_S1048576x1x1_0_1_2),
    TRef.binary (TRef.of (T := ⟨S1048576x1x1, .i32⟩) main_call1_v5) (TRef.of (T := ⟨S1048576x1x1, .i32⟩) main_call1_v9) (TRef.of (T := ⟨S1048576x1x1, .i1⟩) main_call1_v10) (cmpi .sle),
    TRef.binary (TRef.of (T := ⟨S1048576x1x1, .i1⟩) main_call1_v7) (TRef.of (T := ⟨S1048576x1x1, .i1⟩) main_call1_v10) (TRef.of (T := ⟨S1048576x1x1, .i1⟩) main_call1_v11) andi,
    TRef.nullary (TRef.of (T := ⟨S_, .i1⟩) main_call1_c_3) (constantI S_ 1 1#1),
    TRef.binary (TRef.of (T := ⟨S1048576x1x1, .i1⟩) main_call1_v11) (TRef.of (T := ⟨S_, .i1⟩) main_call1_c_3) (TRef.of (T := ⟨S1048576x1, .i1⟩) main_call1_v12) (fun x v => Host.reduce IntOp.andi x v reducesTo_S1048576x1x1_S1048576x1_d2 h_S_),
    TRef.binary (TRef.of (T := ⟨S1048576x100, .f32⟩) main_v1) (TRef.of (T := ⟨S1048576x1x1, .i32⟩) main_call1_v5) (TRef.of (T := ⟨S1048576x1, .f32⟩) main_call1_v13) (fun x i => Host.gather gather_S1048576x100_S1048576x1x1_S1048576x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1048576x1, .f32⟩) main_call1_v14) (broadcastInDim S1048576x1 ![] bcast_S_S1048576x1),
    TRef.ternary (TRef.of (T := ⟨S1048576x1, .i1⟩) main_call1_v12) (TRef.of (T := ⟨S1048576x1, .f32⟩) main_call1_v13) (TRef.of (T := ⟨S1048576x1, .f32⟩) main_call1_v14) (TRef.of (T := ⟨S1048576x1, .f32⟩) main_v3) select ]

/-- The third stretch: the mean, and the count of the classes present. -/
abbrev opsC : List (HloOp τ sig (Elt F)) :=
  [ reshape main_v3 main_v4 rfl shapeCasts_S1048576x1_S1048576,
    unary main_v4 main_v5 (Host.negf : (⟨S1048576, .f32⟩ : BufTy).Contents (Elt F) → (⟨S1048576, .f32⟩ : BufTy).Contents (Elt F)),
    nullary main_cst (constant S_ .f32 0x00000000#32),
    binary main_v5 main_cst main_v6 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)),
    nullary main_cst_0 (constant S_ .f32 0x49800000#32),
    binary main_v6 main_cst_0 main_v7 (Host.divf : (⟨S_, .f32⟩ : BufTy).Contents (Elt F) → (⟨S_, .f32⟩ : BufTy).Contents (Elt F) → (⟨S_, .f32⟩ : BufTy).Contents (Elt F)),
    nullary main_c (constantI S_ 32 1#32),
    unary main_c main_v8 (broadcastInDim S1048576 ![] bcast_S_S1048576 : (⟨S_, .i32⟩ : BufTy).Contents (Elt F) → (⟨S1048576, .i32⟩ : BufTy).Contents (Elt F)),
    nullary main_c_1 (constantI S_ 32 0#32),
    unary main_c_1 main_v9 (broadcastInDim S100 ![] bcast_S_S100 : (⟨S_, .i32⟩ : BufTy).Contents (Elt F) → (⟨S100, .i32⟩ : BufTy).Contents (Elt F)),
    unary main_arg2 main_v10 (broadcastInDim S1048576x1 ![0] bcast_S1048576_S1048576x1_0 : (⟨S1048576, .i32⟩ : BufTy).Contents (Elt F) → (⟨S1048576x1, .i32⟩ : BufTy).Contents (Elt F)),
    ternary main_v9 main_v10 main_v8 main_v11 ((fun x i u => Host.scatter scatter_S100_S1048576x1_S1048576_n_0_0_1 IntOp.addi x i u) : (⟨S100, .i32⟩ : BufTy).Contents (Elt F) → (⟨S1048576x1, .i32⟩ : BufTy).Contents (Elt F) → (⟨S1048576, .i32⟩ : BufTy).Contents (Elt F) → (⟨S100, .i32⟩ : BufTy).Contents (Elt F)),
    nullary main_c_2 (constantI S_ 32 0#32),
    unary main_c_2 main_v12 (broadcastInDim S100 ![] bcast_S_S100 : (⟨S_, .i32⟩ : BufTy).Contents (Elt F) → (⟨S100, .i32⟩ : BufTy).Contents (Elt F)),
    binary main_v11 main_v12 main_v13 (cmpi .sgt : (⟨S100, .i32⟩ : BufTy).Contents (Elt F) → (⟨S100, .i32⟩ : BufTy).Contents (Elt F) → (⟨S100, .i1⟩ : BufTy).Contents (Elt F)),
    unary main_v13 main_v14 ((extui 32 · natLt_1_32) : (⟨S100, .i1⟩ : BufTy).Contents (Elt F) → (⟨S100, .i32⟩ : BufTy).Contents (Elt F)),
    nullary main_c_3 (constantI S_ 32 0#32),
    binary main_v14 main_c_3 main_v15 ((fun x v => Host.reduce IntOp.addi x v reducesTo_S100_S_d0 h_S_) : (⟨S100, .i32⟩ : BufTy).Contents (Elt F) → (⟨S_, .i32⟩ : BufTy).Contents (Elt F) → (⟨S_, .i32⟩ : BufTy).Contents (Elt F)),
    unary main_v15 main_v16 (sitofp .f32 : (⟨S_, .i32⟩ : BufTy).Contents (Elt F) → (⟨S_, .f32⟩ : BufTy).Contents (Elt F)),
    binary main_v7 main_v16 main_v17 (mulf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., binary_bufs_sub .., unary_bufs_sub .., binary_bufs_sub ..⟩

/-- The line is its three stretches in a row. -/
theorem ops_split : (ops : List (HloOp τ sig (Elt F))) = opsA ++ (opsB ++ opsC) := rfl

/-- The fold over two lines in a row is the second line's fold from the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The three stretches, each from an arbitrary valuation -/

/-- The second stretch's value as a function of the log-softmax it reads and of the labels. -/
def pick (y1 : (⟨S1048576x100, .f32⟩ : BufTy).Contents (Elt F)) (x2 : (⟨S1048576, .i32⟩ : BufTy).Contents (Elt F)) :
    (⟨S1048576x1, .f32⟩ : BufTy).Contents (Elt F) :=
  select (ReadP.val_main_call1_v12 (F := F) x2)
    (Host.gather gather_S1048576x100_S1048576x1x1_S1048576x1_n_1_0_0_1_2_11 y1 (ReadP.val_main_call1_v5 (F := F) x2))
    (ReadP.val_main_call1_v14 (F := F))

/-- The third stretch's value as a function of the picked entries it reads and of the labels. -/
def scaled (y3 : (⟨S1048576x1, .f32⟩ : BufTy).Contents (Elt F)) (x2 : (⟨S1048576, .i32⟩ : BufTy).Contents (Elt F)) :
    (⟨S_, .f32⟩ : BufTy).Contents (Elt F) :=
  mulf (Host.divf (Host.reduceAdd (Host.negf (shapeCast _ y3 shapeCasts_S1048576x1_S1048576)) (ReadP.val_main_cst (F := F))
      reducesTo_S1048576_S_d0 h_S_) (ReadP.val_main_cst_0 (F := F))) (ReadP.val_main_v16 (F := F) x2)

theorem pick_val (x0 : (⟨S1048576x128, .f32⟩ : BufTy).Contents (Elt F)) (x1 : (⟨S100x128, .f32⟩ : BufTy).Contents (Elt F))
    (x2 : (⟨S1048576, .i32⟩ : BufTy).Contents (Elt F)) :
    pick (ReadP.val_main_v1 (F := F) x0 x1) x2 = ReadP.val_main_v3 (F := F) x0 x1 x2 := rfl

theorem scaled_val (x0 : (⟨S1048576x128, .f32⟩ : BufTy).Contents (Elt F)) (x1 : (⟨S100x128, .f32⟩ : BufTy).Contents (Elt F))
    (x2 : (⟨S1048576, .i32⟩ : BufTy).Contents (Elt F)) :
    scaled (ReadP.val_main_v3 (F := F) x0 x1 x2) x2 = ReadP.val_main_v17 (F := F) x0 x1 x2 := rfl

/-- Contents moved to a typed reference's buffer type and back are the contents. -/
private theorem ofBuf_toBuf {Val : EltTy → Type} {T : BufTy} (x : TRef sig T) (v : T.Contents Val) :
    x.ofBuf (x.toBuf v) = v := by
  obtain ⟨r, h, _, _⟩ := x
  subst h
  rfl

variable (W : Valuation τ sig (Elt F))

theorem A_arg0 : after opsA W (Proc.devRef .tc main_arg0) = W (Proc.devRef .tc main_arg0) := by
  after_results_simp
theorem A_arg1 : after opsA W (Proc.devRef .tc main_arg1) = W (Proc.devRef .tc main_arg1) := by
  after_results_simp
theorem A_arg2 : after opsA W (Proc.devRef .tc main_arg2) = W (Proc.devRef .tc main_arg2) := by
  after_results_simp

theorem A_v1 : after opsA W (Proc.devRef .tc main_v1)
    = ReadP.val_main_v1 (F := F) (W (Proc.devRef .tc main_arg0)) (W (Proc.devRef .tc main_arg1)) := by
  after_results_simp
  simp only [ofBuf_toBuf]
  rfl

theorem B_arg0 : after opsB W (Proc.devRef .tc main_arg0) = W (Proc.devRef .tc main_arg0) := by
  after_results_simp
theorem B_arg1 : after opsB W (Proc.devRef .tc main_arg1) = W (Proc.devRef .tc main_arg1) := by
  after_results_simp
theorem B_arg2 : after opsB W (Proc.devRef .tc main_arg2) = W (Proc.devRef .tc main_arg2) := by
  after_results_simp

attribute [local irreducible] Host.reduce Host.gather in
theorem B_v3 : after opsB W (Proc.devRef .tc main_v3)
    = pick (F := F) (W (Proc.devRef .tc main_v1)) (W (Proc.devRef .tc main_arg2)) := by
  after_results_simp
  simp only [ofBuf_toBuf]
  rfl

theorem C_arg0 : after opsC W (Proc.devRef .tc main_arg0) = W (Proc.devRef .tc main_arg0) := by
  after_results_simp
theorem C_arg1 : after opsC W (Proc.devRef .tc main_arg1) = W (Proc.devRef .tc main_arg1) := by
  after_results_simp
theorem C_arg2 : after opsC W (Proc.devRef .tc main_arg2) = W (Proc.devRef .tc main_arg2) := by
  after_results_simp
theorem C_v17 : after opsC W (Proc.devRef .tc main_v17)
    = scaled (F := F) (W (Proc.devRef .tc main_v3)) (W (Proc.devRef .tc main_arg2)) := by
  after_results_simp <;> rfl

/-! ## The whole line -/

variable (V : Valuation τ sig (Elt F))

theorem ops_arg0 : after ops V (Proc.devRef .tc main_arg0) = V (Proc.devRef .tc main_arg0) := by
  rw [ops_split, after_app, after_app, C_arg0, B_arg0, A_arg0]
theorem ops_arg1 : after ops V (Proc.devRef .tc main_arg1) = V (Proc.devRef .tc main_arg1) := by
  rw [ops_split, after_app, after_app, C_arg1, B_arg1, A_arg1]
theorem ops_arg2 : after ops V (Proc.devRef .tc main_arg2) = V (Proc.devRef .tc main_arg2) := by
  rw [ops_split, after_app, after_app, C_arg2, B_arg2, A_arg2]

/-- The result buffer after the whole line: the staged value of the arguments. -/
theorem ops_v17 : after ops V (Proc.devRef .tc main_v17)
    = ReadP.val_main_v17 (F := F) (V (Proc.devRef .tc main_arg0)) (V (Proc.devRef .tc main_arg1)) (V (Proc.devRef .tc main_arg2)) := by
  rw [ops_split, after_app, after_app, C_v17, B_v3, B_arg2, A_v1, A_arg2, pick_val, scaled_val]

/-- On every device, for any float values, from any memory with zero counters: every weakly fair execution of
    @main terminates with the result at the staged value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = Cert.ReferenceIdeal.ReadP.val_main_v17 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v17).trans (ops_v17 (launchContents m c)),
      (h c main_arg0).trans (ops_arg0 (launchContents m c)),
      (h c main_arg1).trans (ops_arg1 (launchContents m c)),
      (h c main_arg2).trans (ops_arg2 (launchContents m c))⟩)
    (run_seq scopedRefs_eq scopedSems_eq defs main (fun _ => ops) main_eq (fun _ => ops_sub) m ρ)

end Cert.ReferenceIdeal.RefRun

end
-- ==== Proof.PreFacts.lean ====
/-
  The printed precondition, read back: when the precondition function evaluates to the all-ones bit, every entry of the
  samples and of the anchors is a real number (its absolute value lies strictly below +∞, so it is neither infinity), and every
  label, read as a signed word, lies in [0, 100).
-/
import proofs.«423522_j76991583748731_1_alg».proof.Proof.Gen.Pre_finite_inputs
import proofs.«423522_j76991583748731_1_alg».proof.Proof.Spec
import Idealize.ShloMosaic.Lib.ReduceAll
import Idealize.ShloMosaic.Lib.StableHlo.Predicate
import Idealize.ShloMosaic.Lib.ValueIdx

namespace Cert.PreFacts

open Idealize.ShloMosaic Idealize.ShloMosaic.ValueIdx Cert.CE

/-- The pattern with all exponent bits set and no fraction bit denotes +∞. -/
private theorem inf_bits : Ideal.ofBits .f32 0x7F800000#32 = (⊤ : EReal) := by
  simp [Ideal.ofBits, Ideal.ieee]

/-- An extended real whose absolute value max v (−v) lies strictly below +∞ is a real: +∞ has absolute value +∞, and so has −∞. -/
private theorem real_of_abs_lt (v : EReal) (h : Ideal.cmp .olt (max v (-v)) ⊤ = 1#1) : ∃ r : ℝ, v = (r : EReal) := by
  simp only [Ideal.cmp, StableHlo.Predicate.ofBool_eq_one_iff, decide_eq_true_eq] at h
  have h1 : v ≠ ⊤ := fun e => by subst e; simp at h
  have h2 : v ≠ ⊥ := fun e => by subst e; simp at h
  induction v using EReal.rec with
  | bot => exact absurd rfl h2
  | coe r => exact ⟨r, rfl⟩
  | top => exact absurd rfl h1

/-- A word w with 0 ≤ w and w < 100 as signed compares, both bits set, lies in [0, 100) as a signed integer. -/
private theorem label_fact (w : BitVec 32) (h : IntOp.andi (IntOp.cmpi .sge w 0#32) (IntOp.cmpi .slt w 100#32) = 1#1) :
    0 ≤ w.toInt ∧ w.toInt < 100 := by
  obtain ⟨h1, h2⟩ := IntOp.andi_eq_one.1 h
  simp only [IntOp.cmpi, StableHlo.Predicate.ofBool_eq_one_iff, BitVec.sle, BitVec.slt, decide_eq_true_eq] at h1 h2
  have e0 : (0#32 : BitVec 32).toInt = 0 := by decide
  have e100 : (100#32 : BitVec 32).toInt = 100 := by decide
  rw [e0] at h1; rw [e100] at h2
  exact ⟨h1, h2⟩

/-- One element of the finiteness mask |v| < +∞ being set says that element of v is a real. -/
private theorem finite_elem {s : Shape} (hb : Cert.Pre_finite_inputs.S_.BroadcastsInDim s (![] : Fin 0 → Fin s.rank))
    (v : s.Idx → EReal) (i : s.Idx)
    (h : cmpf (F := Ideal) (φ := .f32) .olt (Host.absf (F := Ideal) (φ := .f32) v)
      (broadcastInDim s ![] hb (constant (F := Ideal) Cert.Pre_finite_inputs.S_ .f32 0x7F800000#32)) i = 1#1) :
    ∃ r : ℝ, v i = (r : EReal) := by
  refine real_of_abs_lt (v i) ?_
  rw [← inf_bits]
  exact h

theorem of_pre [Cert.Pre_finite_inputs.Facts] (x : SX.Idx → EReal) (a : SA.Idx → EReal) (y : SY.Idx → BitVec 32)
    (h : Cert.Pre_finite_inputs.fn (F := Ideal) x a y = fun _ => 1#1) : Finite x ∧ Finite a ∧ InRange y := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  haveI : Subsingleton Cert.Pre_finite_inputs.S_.Idx := ⟨fun a b => funext fun d => d.elim0⟩
  refine ⟨fun i => ?_, fun i => ?_, fun n => ?_⟩
  · exact finite_elem _ x i (Host.reduce_andi_all _ _ _ _ _ h1 i)
  · exact finite_elem _ a i (Host.reduce_andi_all _ _ _ _ _ h2 i)
  · exact label_fact (y (ix1 n)) (Host.reduce_andi_all _ _ _ _ _ h3 (ix1 n))

end Cert.PreFacts
-- ==== Proof.lean ====
/-
  The mean cross-entropy of 1048576 samples against 100 anchor classes, times the number of classes that occur among the
  labels: a kernel that streams the samples in 128 tiles of 8192, pads the class axis to 128 lanes, masks the padding
  lanes of the score matrix with the named fill "neg_big" (−∞ at the extended reals), and accumulates a running sum and a
  one-hot class histogram across the grid, against the reference (log-softmax, a gather at the labels, a mean, a
  segment count).

  Under finite inputs and labels in [0, 100): per sample the padding lanes are neutral in the row maximum, contribute
  exp(−∞) = 0 to the sum of exponentials and 0 · (−∞) = 0 to the one-hot product, so the kernel's 128-lane value
  (log Σ exp(s − M) + M) − s_y is the reference's −((s_y − M) − log Σ exp(s − M)) over the 100 real scores; the tile sums
  regroup to the sum over all samples; a class's float count (a sum of zeros and ones) is positive exactly when its
  integer count is; and both programs end with the same division, count and product.
-/
import proofs.«423522_j76991583748731_1_alg».proof.Defs
import proofs.«423522_j76991583748731_1_alg».proof.Proof.Gen.Kernel
import proofs.«423522_j76991583748731_1_alg».proof.Proof.Gen.Kernel.Frame
import proofs.«423522_j76991583748731_1_alg».proof.Proof.Gen.KernelIdeal
import proofs.«423522_j76991583748731_1_alg».proof.Proof.Gen.KernelIdeal.Frame
import proofs.«423522_j76991583748731_1_alg».proof.Proof.Gen.ReferenceIdeal
import proofs.«423522_j76991583748731_1_alg».proof.Proof.Gen.Pre_finite_inputs
import proofs.«423522_j76991583748731_1_alg».proof.Proof.KernelFrame
import proofs.«423522_j76991583748731_1_alg».proof.Proof.Bridge
import proofs.«423522_j76991583748731_1_alg».proof.Proof.RefRun
import proofs.«423522_j76991583748731_1_alg».proof.Proof.PreFacts
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The one idealization: the masking fill is named −∞. -/
theorem preserves : Cert.preserves_Kernel_KernelIdeal :=
  IdealRules.named_const.statement Cert.KernelIdeal.κ "neg_big" .f32 0xF149F2CA#32 ⊥ rfl

/-- At the extended reals, from memories that agree on the arguments, the kernel's result and the reference's are equal. -/
theorem algebraic : Cert.algebraic_KernelIdeal_ReferenceIdeal := by
  intro m ρ m' ρ' hpre hagree
  refine ⟨fun c => Cert.KernelIdeal.KValue.ktail (F := Ideal)
      (Cert.KernelIdeal.KValue.accCE m c Cert.KernelIdeal.KValue.tlast.val Cert.KernelIdeal.KValue.tlast.isLt)
      (Cert.KernelIdeal.KValue.accCnt m c Cert.KernelIdeal.KValue.tlast.val Cert.KernelIdeal.KValue.tlast.isLt),
    Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨hx, ha, hy⟩ := Cert.PreFacts.of_pre _ _ _ (hpre c)
  exact (Cert.Bridge.result_eq m c hx ha hy).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
